-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S220000 : Shape := ⟨1, ![220000]⟩
abbrev S256x128 : Shape := ⟨2, ![256, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_
  bcast_S_S220000 : S_.BroadcastsInDim S220000 (![] : Fin 0 → Fin S220000.rank)
  reducesTo_S220000_S_d0 : S220000.ReducesTo [0] S_

variable [Facts]

def fn_part2 {F : FTy → Type} [FloatOps F] (main_arg1 : IVec S220000 32) (main_arg2 : IVec S220000 32) (main_v33 : IVec S_ 1) : IVec S_ 1 :=
  let main_c_12 : IVec S_ 32 := constantI S_ 32 4294767296#32
  let main_v34 : IVec S220000 32 := broadcastInDim S220000 ![] bcast_S_S220000 main_c_12
  let main_v35 : IVec S220000 1 := cmpi .sge main_arg1 main_v34
  let main_c_13 : IVec S_ 32 := constantI S_ 32 200000#32
  let main_v36 : IVec S220000 32 := broadcastInDim S220000 ![] bcast_S_S220000 main_c_13
  let main_v37 : IVec S220000 1 := cmpi .slt main_arg1 main_v36
  let main_v38 : IVec S220000 1 := andi main_v35 main_v37
  let main_c_14 : IVec S_ 1 := constantI S_ 1 1#1
  let main_v39 : IVec S_ 1 := (fun x v => Host.reduce IntOp.andi x v reducesTo_S220000_S_d0 h_S_) main_v38 main_c_14
  let main_v40 : IVec S_ 1 := andi main_v33 main_v39
  let main_c_15 : IVec S_ 32 := constantI S_ 32 4294767296#32
  let main_v41 : IVec S220000 32 := broadcastInDim S220000 ![] bcast_S_S220000 main_c_15
  let main_v42 : IVec S220000 1 := cmpi .sge main_arg2 main_v41
  let main_c_16 : IVec S_ 32 := constantI S_ 32 200000#32
  let main_v43 : IVec S220000 32 := broadcastInDim S220000 ![] bcast_S_S220000 main_c_16
  let main_v44 : IVec S220000 1 := cmpi .slt main_arg2 main_v43
  let main_v45 : IVec S220000 1 := andi main_v42 main_v44
  let main_c_17 : IVec S_ 1 := constantI S_ 1 1#1
  let main_v46 : IVec S_ 1 := (fun x v => Host.reduce IntOp.andi x v reducesTo_S220000_S_d0 h_S_) main_v45 main_c_17
  let main_v47 : IVec S_ 1 := andi main_v40 main_v46
  main_v47

def fn_part1 {F : FTy → Type} [FloatOps F] (main_arg1 : IVec S220000 32) (main_arg2 : IVec S220000 32) (main_arg6 : FVec F S128 .f32) (main_arg7 : FVec F S128x2 .f32) (main_arg8 : FVec F S2 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x2 .f32 := Host.absf main_arg7
  let main_cst_8 : FVec F S_ .f32 := constant S_ .f32 0x7F800000#32
  let main_v25 : FVec F S128x2 .f32 := broadcastInDim S128x2 ![] bcast_S_S128x2 main_cst_8
  let main_v26 : IVec S128x2 1 := cmpf .olt main_v24 main_v25
  let main_c_9 : IVec S_ 1 := constantI S_ 1 1#1
  let main_v27 : IVec S_ 1 := (fun x v => Host.reduce IntOp.andi x v reducesTo_S128x2_S_d0_1 h_S_) main_v26 main_c_9
  let main_v28 : IVec S_ 1 := andi main_v23 main_v27
  let main_v29 : FVec F S2 .f32 := Host.absf main_arg8
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  fn_part2 (F := F) main_arg1 main_arg2 main_v33

def fn {F : FTy → Type} [FloatOps F] (main_arg0 : FVec F S200000x128 .f32) (main_arg1 : IVec S220000 32) (main_arg2 : IVec S220000 32) (main_arg3 : FVec F S256x128 .f32) (main_arg4 : FVec F S128 .f32) (main_arg5 : FVec F S128x128 .f32) (main_arg6 : FVec F S128 .f32) (main_arg7 : FVec F S128x2 .f32) (main_arg8 : FVec F S2 .f32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S256x128 .f32 := Host.absf main_arg3
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg2 main_arg6 main_arg7 main_arg8 main_v13 main_v16
-- ==== Kernel.lean ====
abbrev S200000x128 : Shape := ⟨2, ![200000, 128]⟩
abbrev S220000 : Shape := ⟨1, ![220000]⟩
abbrev S256x128 : Shape := ⟨2, ![256, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S_ : Shape := ⟨0, ![]⟩
abbrev S220000x1 : Shape := ⟨2, ![220000, 1]⟩
abbrev S1 : Shape := ⟨1, ![1]⟩
abbrev S1x1 : Shape := ⟨2, ![1, 1]⟩
abbrev S220000x128 : Shape := ⟨2, ![220000, 128]⟩
abbrev S1x128 : Shape := ⟨2, ![1, 128]⟩
abbrev S1x2 : Shape := ⟨2, ![1, 2]⟩
abbrev S220000x2 : Shape := ⟨2, ![220000, 2]⟩
abbrev S2000x128 : Shape := ⟨2, ![2000, 128]⟩
abbrev S2000x2 : Shape := ⟨2, ![2000, 2]⟩

abbrev nBuf : Space → Nat
  | .hbm => 61
  | .vmem => 13
  | .smem => 0
  | _ => 0

abbrev bufTy : (tb : Table) → Fin (tcTables nBuf tb) → BufTy
  | .hbm, ⟨0, _⟩ => ⟨S200000x128, .f32⟩
  | .hbm, ⟨1, _⟩ => ⟨S220000, .i32⟩
  | .hbm, ⟨2, _⟩ => ⟨S220000, .i32⟩
  | .hbm, ⟨3, _⟩ => ⟨S256x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x2, .f32⟩
  | .hbm, ⟨8, _⟩ => ⟨S2, .f32⟩
  | .hbm, ⟨9, _⟩ => ⟨S_, .i32⟩
  | .hbm, ⟨10, _⟩ => ⟨S220000, .i32⟩
  | .hbm, ⟨11, _⟩ => ⟨S220000, .i1⟩
  | .hbm, ⟨12, _⟩ => ⟨S_, .i32⟩
  | .hbm, ⟨13, _⟩ => ⟨S220000, .i32⟩
  | .hbm, ⟨14, _⟩ => ⟨S220000, .i32⟩
  | .hbm, ⟨15, _⟩ => ⟨S220000, .i32⟩
  | .hbm, ⟨16, _⟩ => ⟨S220000x1, .i32⟩
  | .hbm, ⟨17, _⟩ => ⟨S1, .i32⟩
  | .hbm, ⟨18, _⟩ => ⟨S_, .i32⟩
  | .hbm, ⟨19, _⟩ => ⟨S220000x1, .i32⟩
  | .hbm, ⟨20, _⟩ => ⟨S220000x1, .i1⟩
  | .hbm, ⟨21, _⟩ => ⟨S1x1, .i32⟩
  | .hbm, ⟨22, _⟩ => ⟨S220000x1, .i32⟩
  | .hbm, ⟨23, _⟩ => ⟨S220000x1, .i1⟩
  | .hbm, ⟨24, _⟩ => ⟨S220000x1, .i1⟩
  | .hbm, ⟨25, _⟩ => ⟨S_, .i1⟩
  | .hbm, ⟨26, _⟩ => ⟨S220000, .i1⟩
  | .hbm, ⟨27, _⟩ => ⟨S220000x128, .f32⟩
  | .hbm, ⟨28, _⟩ => ⟨S220000x128, .i1⟩
  | .hbm, ⟨29, _⟩ => ⟨S_, .f32⟩
  | .hbm, ⟨30, _⟩ => ⟨S220000x128, .f32⟩
  | .hbm, ⟨31, _⟩ => ⟨S220000x128, .f32⟩
  | .hbm, ⟨32, _⟩ => ⟨S_, .i32⟩
  | .hbm, ⟨33, _⟩ => ⟨S220000, .i32⟩
  | .hbm, ⟨34, _⟩ => ⟨S220000, .i1⟩
  | .hbm, ⟨35, _⟩ => ⟨S_, .i32⟩
  | .hbm, ⟨36, _⟩ => ⟨S220000, .i32⟩
  | .hbm, ⟨37, _⟩ => ⟨S220000, .i32⟩
  | .hbm, ⟨38, _⟩ => ⟨S220000, .i32⟩
  | .hbm, ⟨39, _⟩ => ⟨S220000x1, .i32⟩
  | .hbm, ⟨40, _⟩ => ⟨S1, .i32⟩
  | .hbm, ⟨41, _⟩ => ⟨S_, .i32⟩
  | .hbm, ⟨42, _⟩ => ⟨S220000x1, .i32⟩
  | .hbm, ⟨43, _⟩ => ⟨S220000x1, .i1⟩
  | .hbm, ⟨44, _⟩ => ⟨S1x1, .i32⟩
  | .hbm, ⟨45, _⟩ => ⟨S220000x1, .i32⟩
  | .hbm, ⟨46, _⟩ => ⟨S220000x1, .i1⟩
  | .hbm, ⟨47, _⟩ => ⟨S220000x1, .i1⟩
  | .hbm, ⟨48, _⟩ => ⟨S_, .i1⟩
  | .hbm, ⟨49, _⟩ => ⟨S220000, .i1⟩
  | .hbm, ⟨50, _⟩ => ⟨S220000x128, .f32⟩
  | .hbm, ⟨51, _⟩ => ⟨S220000x128, .i1⟩
  | .hbm, ⟨52, _⟩ => ⟨S_, .f32⟩
  | .hbm, ⟨53, _⟩ => ⟨S220000x128, .f32⟩
  | .hbm, ⟨54, _⟩ => ⟨S220000x128, .f32⟩
  | .hbm, ⟨55, _⟩ => ⟨S128x128, .f32⟩
  | .hbm, ⟨56, _⟩ => ⟨S128x128, .f32⟩
  | .hbm, ⟨57, _⟩ => ⟨S1x128, .f32⟩
  | .hbm, ⟨58, _⟩ => ⟨S1x128, .f32⟩
  | .hbm, ⟨59, _⟩ => ⟨S1x2, .f32⟩
  | .hbm, ⟨60, _⟩ => ⟨S220000x2, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S128x128, .f32⟩
  | .local _ .vmem, ⟨8, _⟩ => ⟨S1x128, .f32⟩
  | .local _ .vmem, ⟨9, _⟩ => ⟨S128x2, .f32⟩
  | .local _ .vmem, ⟨10, _⟩ => ⟨S1x2, .f32⟩
  | .local _ .vmem, ⟨11, _⟩ => ⟨S2000x2, .f32⟩
  | .local _ .vmem, ⟨12, _⟩ => ⟨S2000x2, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v0 : Ref sig .tc := ⟨.hbm, 31, rfl⟩
abbrev main_call1_c : Ref sig .tc := ⟨.hbm, 32, rfl⟩
abbrev main_call1_v0 : Ref sig .tc := ⟨.hbm, 33, rfl⟩
abbrev main_call1_v1 : Ref sig .tc := ⟨.hbm, 34, rfl⟩
abbrev main_call1_c_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_c_1 : Ref sig .tc := ⟨.hbm, 40, rfl⟩
abbrev main_call1_c_2 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_3 : Ref sig .tc := ⟨.hbm, 48, rfl⟩
abbrev main_call1_v12 : Ref sig .tc := ⟨.hbm, 49, rfl⟩
abbrev main_call1_v13 : Ref sig .tc := ⟨.hbm, 50, rfl⟩
abbrev main_call1_v14 : Ref sig .tc := ⟨.hbm, 51, rfl⟩
abbrev main_call1_cst : Ref sig .tc := ⟨.hbm, 52, rfl⟩
abbrev main_call1_v15 : Ref sig .tc := ⟨.hbm, 53, rfl⟩
abbrev main_v1 : Ref sig .tc := ⟨.hbm, 54, rfl⟩
abbrev main_v2 : Ref sig .tc := ⟨.hbm, 55, rfl⟩
abbrev main_v3 : Ref sig .tc := ⟨.hbm, 56, rfl⟩
abbrev main_v4 : Ref sig .tc := ⟨.hbm, 57, rfl⟩
abbrev main_v5 : Ref sig .tc := ⟨.hbm, 58, rfl⟩
abbrev main_v6 : Ref sig .tc := ⟨.hbm, 59, rfl⟩
abbrev main_v7 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![110], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x2 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2000x2 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bcast_S_S220000 : S_.BroadcastsInDim S220000 (![] : Fin 0 → Fin S220000.rank)
  bcast_S220000_S220000x1_0 : S220000.BroadcastsInDim S220000x1 (![0] : Fin 1 → Fin S220000x1.rank)
  bcast_S_S220000x1 : S_.BroadcastsInDim S220000x1 (![] : Fin 0 → Fin S220000x1.rank)
  bcast_S1_S1x1_1 : S1.BroadcastsInDim S1x1 (![1] : Fin 1 → Fin S1x1.rank)
  bcast_S1x1_S220000x1_0_1 : S1x1.BroadcastsInDim S220000x1 (![0, 1] : Fin 2 → Fin S220000x1.rank)
  reducesTo_S220000x1_S220000_d1 : S220000x1.ReducesTo [1] S220000
  h_S_ : 0 < S_.numel
  bcast_S220000_S220000x128_0 : S220000.BroadcastsInDim S220000x128 (![0] : Fin 1 → Fin S220000x128.rank)
  bcast_S_S220000x128 : S_.BroadcastsInDim S220000x128 (![] : Fin 0 → Fin S220000x128.rank)
  slices_S256x128_S128x128_0_0 : S256x128.Slices ![0, 0] S128x128
  slices_S256x128_S128x128_128_0 : S256x128.Slices ![128, 0] S128x128
  shapeCasts_S128_S1x128 : S128.ShapeCasts S1x128
  shapeCasts_S2_S1x2 : S2.ShapeCasts S1x2
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S128x2_S128x2_0_0 : ∀ a, (![0, 0] : Fin 2 → Nat) a + S128x2.size a ≤ S128x2.size a
  h_S128x2 : 0 < S128x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x128_S2000x128 : S1x128.Broadcasts S2000x128
  broadcasts_S1x2_S2000x2 : S1x2.Broadcasts S2000x2
  inb_S2000x2_S2000x2_0_0 : ∀ a, (![0, 0] : Fin 2 → Nat) a + S2000x2.size a ≤ S2000x2.size a
  h_S2000x2 : 0 < S2000x2.numel
  gather_S200000x128_S220000x1_S220000x128_1_0_n_n_0_1_1128_wf : GatherDims.WF S200000x128 S220000x1 S220000x128 [1] [0] [] [0] [] 1 ![1, 128]
  dot_S2000x128_S128x128_S2000x128_1_0_0_1_n_n_wf : DotDims.WF S2000x128 S128x128 S2000x128 [1] [0] [0] [1] [] []
  dot_S2000x128_S128x2_S2000x2_1_0_0_1_n_n_wf : DotDims.WF S2000x128 S128x2 S2000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S220000x128.size a
  hwx0_0 : ∀ i : grid0.Coords, EltTy.bits .f32 = 32 ∨ (Rect.block (s := S220000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S220000x128.size a
  hwx0_1 : ∀ i : grid0.Coords, EltTy.bits .f32 = 32 ∨ (Rect.block (s := S220000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x2.size a ≤ S128x2.size a
  hwx0_7 : ∀ i : grid0.Coords, EltTy.bits .f32 = 32 ∨ (Rect.block (s := S128x2) S128x2.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x2.size a ≤ S1x2.size a
  hwx0_8 : ∀ i : grid0.Coords, EltTy.bits .f32 = 32 ∨ (Rect.block (s := S1x2) S1x2.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x2.size a ≤ S220000x2.size a
  hwx0_9 : ∀ i : grid0.Coords, EltTy.bits .f32 = 32 ∨ (Rect.block (s := S220000x2) S2000x2.size (cc0_transform_9 i) (hinb0_9 i)).WholeWords (EltTy.packing .f32)

variable [Facts₀]

def gather_S200000x128_S220000x1_S220000x128_1_0_n_n_0_1_1128 : GatherDims S200000x128 S220000x1 S220000x128 where
  offsetDims := [1]
  collapsedSliceDims := [0]
  operandBatchingDims := []
  startIndicesBatchingDims := []
  startIndexMap := [0]
  indexVectorDim := 1
  sliceSizes := ![1, 128]
  wf := gather_S200000x128_S220000x1_S220000x128_1_0_n_n_0_1_1128_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x2_S2000x2_1_0_0_1_n_n : DotDims S2000x128 S128x2 S2000x2 where
  lhsContracting := [1]
  rhsContracting := [0]
  lhsNonContracting := [0]
  rhsNonContracting := [1]
  lhsBatch := []
  rhsBatch := []
  wf := dot_S2000x128_S128x2_S2000x2_1_0_0_1_n_n_wf

abbrev win0_0 : Pipeline.Window sig grid0 :=
  Pipeline.Window.ofSpec (Memref.whole main_v0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128x2.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6) S1x2.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v7) S2000x2.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S200000x128 : Shape := ⟨2, ![200000, 128]⟩
abbrev S220000 : Shape := ⟨1, ![220000]⟩
abbrev S256x128 : Shape := ⟨2, ![256, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S_ : Shape := ⟨0, ![]⟩
abbrev S220000x1 : Shape := ⟨2, ![220000, 1]⟩
abbrev S220000x128 : Shape := ⟨2, ![220000, 128]⟩
abbrev S220000x256 : Shape := ⟨2, ![220000, 256]⟩
abbrev S1x128 : Shape := ⟨2, ![1, 128]⟩
abbrev S220000x2 : Shape := ⟨2, ![220000, 2]⟩
abbrev S1x2 : Shape := ⟨2, ![1, 2]⟩

abbrev nBuf : Space → Nat
  | .hbm => 66
  | .vmem => 0
  | .smem => 0
  | _ => 0

abbrev bufTy : (tb : Table) → Fin (tcTables nBuf tb) → BufTy
  | .hbm, ⟨0, _⟩ => ⟨S200000x128, .f32⟩
  | .hbm, ⟨1, _⟩ => ⟨S220000, .i32⟩
  | .hbm, ⟨2, _⟩ => ⟨S220000, .i32⟩
  | .hbm, ⟨3, _⟩ => ⟨S256x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x2, .f32⟩
  | .hbm, ⟨8, _⟩ => ⟨S2, .f32⟩
  | .hbm, ⟨9, _⟩ => ⟨S_, .i32⟩
  | .hbm, ⟨10, _⟩ => ⟨S220000, .i32⟩
  | .hbm, ⟨11, _⟩ => ⟨S220000, .i1⟩
  | .hbm, ⟨12, _⟩ => ⟨S_, .i32⟩
  | .hbm, ⟨13, _⟩ => ⟨S220000, .i32⟩
  | .hbm, ⟨14, _⟩ => ⟨S220000, .i32⟩
  | .hbm, ⟨15, _⟩ => ⟨S220000, .i32⟩
  | .hbm, ⟨16, _⟩ => ⟨S220000x1, .i32⟩
  | .hbm, ⟨17, _⟩ => ⟨S220000x128, .f32⟩
  | .hbm, ⟨18, _⟩ => ⟨S_, .i32⟩
  | .hbm, ⟨19, _⟩ => ⟨S220000, .i32⟩
  | .hbm, ⟨20, _⟩ => ⟨S220000, .i1⟩
  | .hbm, ⟨21, _⟩ => ⟨S_, .i32⟩
  | .hbm, ⟨22, _⟩ => ⟨S220000, .i32⟩
  | .hbm, ⟨23, _⟩ => ⟨S220000, .i32⟩
  | .hbm, ⟨24, _⟩ => ⟨S220000, .i32⟩
  | .hbm, ⟨25, _⟩ => ⟨S220000x1, .i32⟩
  | .hbm, ⟨26, _⟩ => ⟨S220000x128, .f32⟩
  | .hbm, ⟨27, _⟩ => ⟨S220000x256, .f32⟩
  | .hbm, ⟨28, _⟩ => ⟨S220000x256, .f32⟩
  | .hbm, ⟨29, _⟩ => ⟨S220000x128, .f32⟩
  | .hbm, ⟨30, _⟩ => ⟨S1x128, .f32⟩
  | .hbm, ⟨31, _⟩ => ⟨S220000x128, .f32⟩
  | .hbm, ⟨32, _⟩ => ⟨S220000x128, .f32⟩
  | .hbm, ⟨33, _⟩ => ⟨S_, .f32⟩
  | .hbm, ⟨34, _⟩ => ⟨S220000x128, .f32⟩
  | .hbm, ⟨35, _⟩ => ⟨S220000x128, .f32⟩
  | .hbm, ⟨36, _⟩ => ⟨S220000x128, .f32⟩
  | .hbm, ⟨37, _⟩ => ⟨S1x128, .f32⟩
  | .hbm, ⟨38, _⟩ => ⟨S220000x128, .f32⟩
  | .hbm, ⟨39, _⟩ => ⟨S220000x128, .f32⟩
  | .hbm, ⟨40, _⟩ => ⟨S_, .f32⟩
  | .hbm, ⟨41, _⟩ => ⟨S220000x128, .f32⟩
  | .hbm, ⟨42, _⟩ => ⟨S220000x128, .f32⟩
  | .hbm, ⟨43, _⟩ => ⟨S220000x2, .f32⟩
  | .hbm, ⟨44, _⟩ => ⟨S1x2, .f32⟩
  | .hbm, ⟨45, _⟩ => ⟨S220000x2, .f32⟩
  | .hbm, ⟨46, _⟩ => ⟨S220000x2, .f32⟩
  | .hbm, ⟨47, _⟩ => ⟨S220000x128, .f32⟩
  | .hbm, ⟨48, _⟩ => ⟨S1x128, .f32⟩
  | .hbm, ⟨49, _⟩ => ⟨S220000x128, .f32⟩
  | .hbm, ⟨50, _⟩ => ⟨S220000x128, .f32⟩
  | .hbm, ⟨51, _⟩ => ⟨S_, .f32⟩
  | .hbm, ⟨52, _⟩ => ⟨S220000x128, .f32⟩
  | .hbm, ⟨53, _⟩ => ⟨S220000x128, .f32⟩
  | .hbm, ⟨54, _⟩ => ⟨S220000x128, .f32⟩
  | .hbm, ⟨55, _⟩ => ⟨S1x128, .f32⟩
  | .hbm, ⟨56, _⟩ => ⟨S220000x128, .f32⟩
  | .hbm, ⟨57, _⟩ => ⟨S220000x128, .f32⟩
  | .hbm, ⟨58, _⟩ => ⟨S_, .f32⟩
  | .hbm, ⟨59, _⟩ => ⟨S220000x128, .f32⟩
  | .hbm, ⟨60, _⟩ => ⟨S220000x128, .f32⟩
  | .hbm, ⟨61, _⟩ => ⟨S220000x2, .f32⟩
  | .hbm, ⟨62, _⟩ => ⟨S1x2, .f32⟩
  | .hbm, ⟨63, _⟩ => ⟨S220000x2, .f32⟩
  | .hbm, ⟨64, _⟩ => ⟨S220000x2, .f32⟩
  | .hbm, ⟨65, _⟩ => ⟨S220000x2, .f32⟩
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_call0_cst : Ref sig .tc := ⟨.hbm, 33, rfl⟩
abbrev main_call0_v0 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_call1_cst : Ref sig .tc := ⟨.hbm, 40, rfl⟩
abbrev main_call1_v0 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_call2_cst : Ref sig .tc := ⟨.hbm, 51, rfl⟩
abbrev main_call2_v0 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_call3_cst : Ref sig .tc := ⟨.hbm, 58, rfl⟩
abbrev main_call3_v0 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩

abbrev nD : Nat := 1
abbrev τ : Topo := Topo.v7x

variable {F : FTy → Type} [FloatOps F]

class Facts₀ : Prop where
  bcast_S_S220000 : S_.BroadcastsInDim S220000 (![] : Fin 0 → Fin S220000.rank)
  bcast_S220000_S220000x1_0 : S220000.BroadcastsInDim S220000x1 (![0] : Fin 1 → Fin S220000x1.rank)
  concatenates_S220000x128_S220000x128_S220000x256_d1 : Shape.Concatenates [S220000x128, S220000x128] S220000x256 1
  bcast_S128_S1x128_1 : S128.BroadcastsInDim S1x128 (![1] : Fin 1 → Fin S1x128.rank)
  bcast_S1x128_S220000x128_0_1 : S1x128.BroadcastsInDim S220000x128 (![0, 1] : Fin 2 → Fin S220000x128.rank)
  bcast_S_S220000x128 : S_.BroadcastsInDim S220000x128 (![] : Fin 0 → Fin S220000x128.rank)
  bcast_S2_S1x2_1 : S2.BroadcastsInDim S1x2 (![1] : Fin 1 → Fin S1x2.rank)
  bcast_S1x2_S220000x2_0_1 : S1x2.BroadcastsInDim S220000x2 (![0, 1] : Fin 2 → Fin S220000x2.rank)
  gather_S200000x128_S220000x1_S220000x128_1_0_n_n_0_1_1128_wf : GatherDims.WF S200000x128 S220000x1 S220000x128 [1] [0] [] [0] [] 1 ![1, 128]
  dot_S220000x256_S256x128_S220000x128_1_0_0_1_n_n_wf : DotDims.WF S220000x256 S256x128 S220000x128 [1] [0] [0] [1] [] []
  dot_S220000x128_S128x128_S220000x128_1_0_0_1_n_n_wf : DotDims.WF S220000x128 S128x128 S220000x128 [1] [0] [0] [1] [] []
  dot_S220000x128_S128x2_S220000x2_1_0_0_1_n_n_wf : DotDims.WF S220000x128 S128x2 S220000x2 [1] [0] [0] [1] [] []

variable [Facts₀]

def gather_S200000x128_S220000x1_S220000x128_1_0_n_n_0_1_1128 : GatherDims S200000x128 S220000x1 S220000x128 where
  offsetDims := [1]
  collapsedSliceDims := [0]
  operandBatchingDims := []
  startIndicesBatchingDims := []
  startIndexMap := [0]
  indexVectorDim := 1
  sliceSizes := ![1, 128]
  wf := gather_S200000x128_S220000x1_S220000x128_1_0_n_n_0_1_1128_wf
def dot_S220000x256_S256x128_S220000x128_1_0_0_1_n_n : DotDims S220000x256 S256x128 S220000x128 where
  lhsContracting := [1]
  rhsContracting := [0]
  lhsNonContracting := [0]
  rhsNonContracting := [1]
  lhsBatch := []
  rhsBatch := []
  wf := dot_S220000x256_S256x128_S220000x128_1_0_0_1_n_n_wf
def dot_S220000x128_S128x128_S220000x128_1_0_0_1_n_n : DotDims S220000x128 S128x128 S220000x128 where
  lhsContracting := [1]
  rhsContracting := [0]
  lhsNonContracting := [0]
  rhsNonContracting := [1]
  lhsBatch := []
  rhsBatch := []
  wf := dot_S220000x128_S128x128_S220000x128_1_0_0_1_n_n_wf
def dot_S220000x128_S128x2_S220000x2_1_0_0_1_n_n : DotDims S220000x128 S128x2 S220000x2 where
  lhsContracting := [1]
  rhsContracting := [0]
  lhsNonContracting := [0]
  rhsNonContracting := [1]
  lhsBatch := []
  rhsBatch := []
  wf := dot_S220000x128_S128x2_S220000x2_1_0_0_1_n_n_wf

class Facts : Prop extends Facts₀ where

variable [Facts]
-- ==== Proof.IndexRange.lean ====
/-
  The index range the precondition states, decoded.

  Beside the finiteness of the float inputs, the precondition says of each of the two index vectors (220000 signed words)
  that every word s satisfies  -200000 <= s  and  s < 200000 : it names a row of the 200000-row table, counting from
  the front (s >= 0) or from the back (s < 0).  The predicate is a conjunction of bits; each index clause is a reduce by
  "and" over the vector of the bits  (s >= -200000) and (s < 200000) .  A conjunction that is 1 has every conjunct 1, and a
  reduce by "and" that is 1 had a 1 at every position.
-/
import proofs.«412722_j52716428591258_1_alg».proof.Pre_finite_inputs
import Idealize.ShloMosaic.Lib.ReduceAll
import Idealize.ShloMosaic.Lib.ValueIdx

noncomputable section

namespace Cert.IndexRange

open Idealize.ShloMosaic Idealize.ShloMosaic.ValueIdx Cert.Pre_finite_inputs

variable {F : FTy → Type} [FloatOps F] [hF : Cert.Pre_finite_inputs.Facts]

/-- The scalar shape has one index. -/
instance : Subsingleton S_.Idx := ⟨fun a b => funext fun d => d.elim0⟩

/-- Every word of an index vector names a row of a 200000-row table, from the front or from the back. -/
def InRange (s : IVec S220000 32) : Prop := ∀ e, -(200000 : Int) ≤ (s e).toInt ∧ (s e).toInt < 200000

/-- The word 4294767296 is -200000 read signed. -/
theorem lo_word : (4294767296#32 : BitVec 32).toInt = -200000 := by decide
/-- The word 200000 is 200000 read signed. -/
theorem hi_word : (200000#32 : BitVec 32).toInt = 200000 := by decide

/-- One index clause: the reduce by "and" of the two range bits is 1, so every word is in range. -/
theorem of_clause (s : IVec S220000 32) (init : IVec S_ 1)
    (h : Host.reduce IntOp.andi
        (andi (cmpi .sge s (broadcastInDim S220000 ![] Facts.bcast_S_S220000 (constantI S_ 32 4294767296#32)))
          (cmpi .slt s (broadcastInDim S220000 ![] Facts.bcast_S_S220000 (constantI S_ 32 200000#32))))
        init Facts.reducesTo_S220000_S_d0 Facts.h_S_ ix0 = 1#1) : InRange s := by
  intro e
  have he := Host.reduce_andi_all _ _ _ _ ix0 h e
  obtain ⟨h1, h2⟩ := IntOp.andi_eq_one.1 he
  have a : (4294767296#32 : BitVec 32).toInt ≤ (s e).toInt := IntOp.cmpi_sge.1 h1
  have b : (s e).toInt < (200000#32 : BitVec 32).toInt := IntOp.cmpi_slt.1 h2
  rw [lo_word] at a
  rw [hi_word] at b
  exact ⟨a, b⟩

/-- THE PRECONDITION DECODED: both index vectors are in range. -/
theorem of_pre (a0 : FVec F S200000x128 .f32) (s d : IVec S220000 32) (a3 : FVec F S256x128 .f32) (a4 : FVec F S128 .f32)
    (a5 : FVec F S128x128 .f32) (a6 : FVec F S128 .f32) (a7 : FVec F S128x2 .f32) (a8 : FVec F S2 .f32)
    (h : fn (F := F) a0 s d a3 a4 a5 a6 a7 a8 = fun _ => 1#1) : InRange s ∧ InRange d := by
  have h0 := congrFun h ix0
  unfold fn fn_part1 fn_part2 at h0
  dsimp only at h0
  obtain ⟨h40, h46⟩ := IntOp.andi_eq_one.1 h0
  obtain ⟨-, h39⟩ := IntOp.andi_eq_one.1 h40
  exact ⟨of_clause s _ h39, of_clause d _ h46⟩

end Cert.IndexRange

end
-- ==== Proof.LibMlp.lean ====
/-
  One dense stage of a graph network's per-node perceptron, as a function on the extended reals, index by index:
  a matrix product, a bias, and an evaluation-mode batch normalisation  (a - m) * rsqrt (v + eps) * g + b , optionally
  followed by a rectifier  max a 0 .  Written over PLAIN coordinates (`Fin`) so that a kernel's row block and the
  whole array are the same function of their rows, and read off the two spellings a program may give it: the
  vector dialect's (a matrix-unit product into a zero accumulator, row vectors broadcast down the rows) and the
  host's (a `dot_general`, vectors broadcast in two steps).
-/
import Idealize.ShloMosaic.PureOps.Ideal
import Idealize.ShloMosaic.PureOps.Ideal.Laws
import Idealize.ShloMosaic.Lib.ValueIdx
import Idealize.ShloMosaic.Lib.Pipeline.Value

noncomputable section

open Idealize.ShloMosaic Idealize.ShloMosaic.ValueIdx

namespace Cert.Mlp

/-- The variance offset of the normalisation: the single-precision word nearest 1e-5, read as an extended real. -/
def eps : EReal := Ideal.ofBits .f32 0x3727C5AC#32
/-- The rectifier's floor: the zero word. -/
def zero : EReal := Ideal.ofBits .f32 0x00000000#32

/-- Evaluation-mode batch normalisation of one value. -/
def bn (a m v g b : EReal) : EReal := (a - m) * Ideal.rsqrt (v + eps) * g + b

/-- A dense stage: row `i 0` of `a` against column `i 1` of `W`, plus the bias, normalised. -/
def lin {N K H : ℕ} (a : (⟨2, ![N, K]⟩ : Shape).Idx → EReal) (W : (⟨2, ![K, H]⟩ : Shape).Idx → EReal)
    (b g be m v : Fin H → EReal) : (⟨2, ![N, H]⟩ : Shape).Idx → EReal := fun i =>
  bn ((∑ k : Fin K, a (ix2 (i 0) k) * W (ix2 k (i 1))) + b (i 1)) (m (i 1)) (v (i 1)) (g (i 1)) (be (i 1))

/-- A one-row matrix read as a vector of its entries. -/
def row {H : ℕ} (x : (⟨2, ![1, H]⟩ : Shape).Idx → EReal) : Fin H → EReal := fun h => x (ix2 0 h)
/-- A rank-one array read as a vector of its entries. -/
def vec {H : ℕ} (x : (⟨1, ![H]⟩ : Shape).Idx → EReal) : Fin H → EReal := fun h => x (ix1 h)

/-- A vector reshaped to one row and read back as a vector is the vector. -/
theorem row_shapeCast {H : ℕ} (y : (⟨1, ![H]⟩ : Shape).Idx → EReal) (h : (⟨1, ![H]⟩ : Shape).ShapeCasts ⟨2, ![1, H]⟩) :
    row (shapeCast (⟨2, ![1, H]⟩ : Shape) y h) = vec y := by
  funext q
  show shapeCast (⟨2, ![1, H]⟩ : Shape) y h (ix2 0 q) = y (ix1 q)
  exact shapeCast_apply y h (ix2 0 q) (ix1 q) (by
    rw [Shape.rowMajor_val_two, Shape.rowMajor_val_one]; show q.val = 0 * H + q.val; omega)

/-- The rectifier, entry by entry. -/
def relu {S : Shape} (a : S.Idx → EReal) : S.Idx → EReal := fun i => max (a i) zero

/-- A dense stage reads only the row it is asked for: two inputs that agree on a row give the same row. -/
theorem lin_row {N N' K H : ℕ} (a : (⟨2, ![N, K]⟩ : Shape).Idx → EReal) (a' : (⟨2, ![N', K]⟩ : Shape).Idx → EReal)
    (W : (⟨2, ![K, H]⟩ : Shape).Idx → EReal) (b g be m v : Fin H → EReal) (r : Fin N) (r' : Fin N') (j : Fin H)
    (h : ∀ k : Fin K, a (ix2 r k) = a' (ix2 r' k)) :
    lin a W b g be m v (ix2 r j) = lin a' W b g be m v (ix2 r' j) := by
  unfold lin
  have : (∑ k : Fin K, a (ix2 r k) * W (ix2 k j)) = ∑ k : Fin K, a' (ix2 r' k) * W (ix2 k j) :=
    Finset.sum_congr rfl fun k _ => by rw [h k]
  exact congrArg (fun s => bn (s + b j) (m j) (v j) (g j) (be j)) this

/-- Two dense stages with a rectifier between them: one layer's perceptron and its outer normalisation. -/
def layer {N K H D : ℕ} (z : (⟨2, ![N, K]⟩ : Shape).Idx → EReal) (W1 : (⟨2, ![K, H]⟩ : Shape).Idx → EReal)
    (b1 g1 be1 m1 v1 : Fin H → EReal) (W2 : (⟨2, ![H, D]⟩ : Shape).Idx → EReal) (b2 g2 be2 m2 v2 : Fin D → EReal) :
    (⟨2, ![N, D]⟩ : Shape).Idx → EReal :=
  lin (relu (lin z W1 b1 g1 be1 m1 v1)) W2 b2 g2 be2 m2 v2

/-- A layer reads only the row it is asked for. -/
theorem layer_row {N N' K H D : ℕ} (z : (⟨2, ![N, K]⟩ : Shape).Idx → EReal) (z' : (⟨2, ![N', K]⟩ : Shape).Idx → EReal)
    (W1 : (⟨2, ![K, H]⟩ : Shape).Idx → EReal) (b1 g1 be1 m1 v1 : Fin H → EReal)
    (W2 : (⟨2, ![H, D]⟩ : Shape).Idx → EReal) (b2 g2 be2 m2 v2 : Fin D → EReal) (r : Fin N) (r' : Fin N') (j : Fin D)
    (h : ∀ k : Fin K, z (ix2 r k) = z' (ix2 r' k)) :
    layer z W1 b1 g1 be1 m1 v1 W2 b2 g2 be2 m2 v2 (ix2 r j) = layer z' W1 b1 g1 be1 m1 v1 W2 b2 g2 be2 m2 v2 (ix2 r' j) :=
  lin_row _ _ W2 b2 g2 be2 m2 v2 r r' j fun k => by
    show max (lin z W1 b1 g1 be1 m1 v1 (ix2 r k)) zero = max (lin z' W1 b1 g1 be1 m1 v1 (ix2 r' k)) zero
    rw [lin_row z z' W1 b1 g1 be1 m1 v1 r r' k h]

/-! ## A plain product's contraction is a sum over the middle coordinate -/

/-- For the dimension numbers of an M×K by K×N product, the sum over the contraction index is the sum over `Fin K` of
    row entry times column entry. -/
theorem plain_sum {M K N : ℕ} (l : (⟨2, ![M, K]⟩ : Shape).Idx → EReal) (r : (⟨2, ![K, N]⟩ : Shape).Idx → EReal)
    (j : (⟨2, ![M, N]⟩ : Shape).Idx) :
    (∑ k : (DotDims.plain M K N).contr.Idx, l ((DotDims.plain M K N).lhsIdx j k) * r ((DotDims.plain M K N).rhsIdx j k))
      = ∑ k : Fin K, l (ix2 (j 0) k) * r (ix2 k (j 1)) := by
  refine (Equiv.sum_comp (contrEquiv1 (DotDims.plain M K N) K rfl rfl).symm _).symm.trans (Finset.sum_congr rfl fun k _ => ?_)
  have hl : (DotDims.plain M K N).lhsIdx j ((contrEquiv1 (DotDims.plain M K N) K rfl rfl).symm k) = ix2 (j 0) k := by
    funext a; apply Fin.ext
    match a with
    | ⟨0, _⟩ => rfl
    | ⟨1, _⟩ => exact contrEquiv1_symm_val (DotDims.plain M K N) K rfl rfl k
  have hr : (DotDims.plain M K N).rhsIdx j ((contrEquiv1 (DotDims.plain M K N) K rfl rfl).symm k) = ix2 k (j 1) := by
    funext a; apply Fin.ext
    match a with
    | ⟨0, _⟩ => exact contrEquiv1_symm_val (DotDims.plain M K N) K rfl rfl k
    | ⟨1, _⟩ => rfl
  exact congrArg₂ (fun x y => l x * r y) hl hr

/-! ## The two spellings of the rectifier -/

theorem vec_relu {S : Shape} (x : FVec Ideal S .f32) :
    maximumf x (broadcast S (Scalar.ofBits .f32 0x00000000#32)) = relu x := rfl

theorem host_relu {S : Shape} (h0 : (⟨0, ![]⟩ : Shape).BroadcastsInDim S ![]) (x : FVec Ideal S .f32) :
    maximumf x (broadcastInDim S ![] h0 (constant (⟨0, ![]⟩ : Shape) .f32 0x00000000#32)) = relu x := rfl

/-! ## The vector dialect's spelling of a dense stage -/

/-- A row vector broadcast down the rows, read at (p, q), is its entry q. -/
theorem bcast_row {N H : ℕ} (hb : (⟨2, ![1, H]⟩ : Shape).Broadcasts ⟨2, ![N, H]⟩) (x : (⟨2, ![1, H]⟩ : Shape).Idx → EReal)
    (p : Fin N) (q : Fin H) : broadcastTo (⟨2, ![N, H]⟩ : Shape) x hb (ix2 p q) = x (ix2 0 q) := by
  refine broadcastTo_apply x hb (ix2 p q) (ix2 0 q) fun a => ?_
  match a with
  | ⟨0, _⟩ => simp
  | ⟨1, _⟩ =>
    show q.val = if H = 1 then 0 else q.val
    split
    · rename_i h; have := q.isLt; omega
    · rfl

theorem vec_lin {N K H : ℕ} {φa φw : FTy} (d : DotDims ⟨2, ![N, K]⟩ ⟨2, ![K, H]⟩ ⟨2, ![N, H]⟩) (hd : d = DotDims.plain N K H)
    (hb : (⟨2, ![1, H]⟩ : Shape).Broadcasts ⟨2, ![N, H]⟩)
    (a : FVec Ideal ⟨2, ![N, K]⟩ φa) (W : FVec Ideal ⟨2, ![K, H]⟩ φw) (b g be m v : FVec Ideal ⟨2, ![1, H]⟩ .f32) :
    addf (mulf (mulf (subf (addf (matmul d none a W (constant ⟨2, ![N, H]⟩ .f32 0x00000000#32)) (broadcastTo ⟨2, ![N, H]⟩ b hb))
        (broadcastTo ⟨2, ![N, H]⟩ m hb))
        (broadcastTo ⟨2, ![N, H]⟩ (rsqrt (addf v (broadcast ⟨2, ![1, H]⟩ (Scalar.ofBits .f32 0x3727C5AC#32)))) hb))
        (broadcastTo ⟨2, ![N, H]⟩ g hb)) (broadcastTo ⟨2, ![N, H]⟩ be hb)
      = lin a W (row b) (row g) (row be) (row m) (row v) := by
  subst hd
  funext i
  obtain ⟨p, q, rfl⟩ : ∃ (p : Fin N) (q : Fin H), i = ix2 p q := ⟨i 0, i 1, eq_ix2 i⟩
  simp only [addf_apply, mulf_apply, subf_apply]
  have hm : matmul (DotDims.plain N K H) none a W (constant ⟨2, ![N, H]⟩ .f32 0x00000000#32) (ix2 p q)
      = ∑ k : Fin K, a (ix2 p k) * W (ix2 k q) := by
    rw [show matmul (DotDims.plain N K H) none a W (constant ⟨2, ![N, H]⟩ .f32 0x00000000#32) (ix2 p q) = _ from
      Ideal.matmul_constant_zero_apply (DotDims.plain N K H) none a W (ix2 p q)]
    exact plain_sum a W (ix2 p q)
  rw [bcast_row hb b p q, bcast_row hb m p q, bcast_row hb g p q, bcast_row hb be p q, bcast_row hb _ p q, hm]
  rfl

/-! ## The host's spelling of a dense stage -/

/-- A vector broadcast to a one-row matrix and then down the rows, read at (p, q), is its entry q. -/
theorem bcast_two {N H : ℕ} (h1 : (⟨1, ![H]⟩ : Shape).BroadcastsInDim ⟨2, ![1, H]⟩ ![1])
    (h2 : (⟨2, ![1, H]⟩ : Shape).BroadcastsInDim ⟨2, ![N, H]⟩ ![0, 1]) (x : (⟨1, ![H]⟩ : Shape).Idx → EReal) (p : Fin N) (q : Fin H) :
    broadcastInDim (⟨2, ![N, H]⟩ : Shape) ![0, 1] h2 (broadcastInDim (⟨2, ![1, H]⟩ : Shape) ![1] h1 x) (ix2 p q) = x (ix1 q) := by
  refine (broadcastInDim_apply ![0, 1] h2 _ (ix2 p q) (ix2 0 q) fun a => ?_).trans
    (broadcastInDim_apply ![1] h1 x (ix2 0 q) (ix1 q) fun a => ?_)
  · match a with
    | ⟨0, _⟩ => simp
    | ⟨1, _⟩ =>
      show q.val = if H = 1 then 0 else q.val
      split
      · rename_i h; have := q.isLt; omega
      · rfl
  · match a with
    | ⟨0, _⟩ =>
      show q.val = if H = 1 then 0 else q.val
      split
      · rename_i h; have := q.isLt; omega
      · rfl

theorem host_lin {N K H : ℕ} {φa φw : FTy} (d : DotDims ⟨2, ![N, K]⟩ ⟨2, ![K, H]⟩ ⟨2, ![N, H]⟩) (hd : d = DotDims.plain N K H)
    (h0 : (⟨0, ![]⟩ : Shape).BroadcastsInDim ⟨1, ![H]⟩ ![])
    (h1 : (⟨1, ![H]⟩ : Shape).BroadcastsInDim ⟨2, ![1, H]⟩ ![1])
    (h2 : (⟨2, ![1, H]⟩ : Shape).BroadcastsInDim ⟨2, ![N, H]⟩ ![0, 1])
    (a : FVec Ideal ⟨2, ![N, K]⟩ φa) (W : FVec Ideal ⟨2, ![K, H]⟩ φw) (b g be m v : FVec Ideal ⟨1, ![H]⟩ .f32) :
    addf (mulf (mulf (subf (addf (Host.dotGeneral d none a W)
          (broadcastInDim (⟨2, ![N, H]⟩ : Shape) ![0, 1] h2 (broadcastInDim (⟨2, ![1, H]⟩ : Shape) ![1] h1 b)))
          (broadcastInDim (⟨2, ![N, H]⟩ : Shape) ![0, 1] h2 (broadcastInDim (⟨2, ![1, H]⟩ : Shape) ![1] h1 m)))
          (broadcastInDim (⟨2, ![N, H]⟩ : Shape) ![0, 1] h2 (broadcastInDim (⟨2, ![1, H]⟩ : Shape) ![1] h1
            (Host.rsqrt (addf v (broadcastInDim (⟨1, ![H]⟩ : Shape) ![] h0 (constant (⟨0, ![]⟩ : Shape) .f32 0x3727C5AC#32)))))))
          (broadcastInDim (⟨2, ![N, H]⟩ : Shape) ![0, 1] h2 (broadcastInDim (⟨2, ![1, H]⟩ : Shape) ![1] h1 g)))
          (broadcastInDim (⟨2, ![N, H]⟩ : Shape) ![0, 1] h2 (broadcastInDim (⟨2, ![1, H]⟩ : Shape) ![1] h1 be))
      = lin a W (vec b) (vec g) (vec be) (vec m) (vec v) := by
  subst hd
  funext i
  obtain ⟨p, q, rfl⟩ : ∃ (p : Fin N) (q : Fin H), i = ix2 p q := ⟨i 0, i 1, eq_ix2 i⟩
  simp only [addf_apply, mulf_apply, subf_apply]
  have hm : Host.dotGeneral (DotDims.plain N K H) none a W (ix2 p q) = ∑ k : Fin K, a (ix2 p k) * W (ix2 k q) := by
    rw [show Host.dotGeneral (DotDims.plain N K H) none a W (ix2 p q) = _ from
      Ideal.dotGeneral_apply (DotDims.plain N K H) none .single a W (ix2 p q)]
    exact plain_sum a W (ix2 p q)
  rw [bcast_two h1 h2 b p q, bcast_two h1 h2 m p q, bcast_two h1 h2 g p q, bcast_two h1 h2 be p q, bcast_two h1 h2 _ p q, hm]
  rfl

end Cert.Mlp

end
-- ==== Proof.LibGatedCell.lean ====
/-
  A gated recurrent cell on the extended reals, index by index, over PLAIN coordinates (Fin):

      z = tanh (x · Wx + bx)                     the candidate state
      u = logistic (h · Wr + z · Uz + bu)        the update gate
      h' = u * h + (1 - u) * z                   a convex combination of the old state and the candidate

  with the weight matrices laid out contraction axis first ([K, H] and [H, H]).  Every output row depends on the
  same row of h and x only, so a block of rows and the whole array are the same function of their rows (cell_row).
  Two spellings a program may give the cell are read onto it: the vector dialect's, which merges the two H-wide
  contractions of the gate into ONE of width H + H — the operands [h, z] side by side against the weights [Wr ; Uz]
  stacked —, and the host's, which keeps them apart and writes the logistic function out as 1 / (1 + exp (-s)).
  The merged contraction is the sum of the two because a finite sum over Fin (H + H) splits at H
  (Fin.sum_univ_add): commutativity and associativity of + on the extended reals, nothing about finiteness.
-/
import Idealize.ShloMosaic.PureOps.Ideal
import Idealize.ShloMosaic.PureOps.Ideal.Laws
import Idealize.ShloMosaic.Lib.ValueIdx
import Idealize.ShloMosaic.Lib.Pipeline.Value

noncomputable section

open Idealize.ShloMosaic Idealize.ShloMosaic.ValueIdx

namespace Cert.GatedCell

/-! ## The single-precision word 1.0 -/

/-- The word 0x3F800000 denotes the extended real 1. -/
theorem ofBits_one : Ideal.ofBits .f32 0x3F800000#32 = 1 := by
  simp [Ideal.ofBits, Ideal.ieee, -EReal.coe_mul]; norm_num

/-! ## The cell -/

/-- The candidate state: row i 0 of x against column i 1 of Wx, plus the bias, through tanh. -/
def cand {N K H : ℕ} (x : (⟨2, ![N, K]⟩ : Shape).Idx → EReal) (Wx : (⟨2, ![K, H]⟩ : Shape).Idx → EReal)
    (bx : Fin H → EReal) : (⟨2, ![N, H]⟩ : Shape).Idx → EReal := fun i =>
  Ideal.tanh ((∑ k : Fin K, x (ix2 (i 0) k) * Wx (ix2 k (i 1))) + bx (i 1))

/-- The update gate of a state h and a candidate z. -/
def gate {N H : ℕ} (h z : (⟨2, ![N, H]⟩ : Shape).Idx → EReal) (Wr Uz : (⟨2, ![H, H]⟩ : Shape).Idx → EReal)
    (bu : Fin H → EReal) : (⟨2, ![N, H]⟩ : Shape).Idx → EReal := fun i =>
  Ideal.logistic (((∑ k : Fin H, h (ix2 (i 0) k) * Wr (ix2 k (i 1))) + ∑ k : Fin H, z (ix2 (i 0) k) * Uz (ix2 k (i 1)))
    + bu (i 1))

/-- The new state. -/
def cell {N K H : ℕ} (h : (⟨2, ![N, H]⟩ : Shape).Idx → EReal) (x : (⟨2, ![N, K]⟩ : Shape).Idx → EReal)
    (Wx : (⟨2, ![K, H]⟩ : Shape).Idx → EReal) (bx : Fin H → EReal) (Wr Uz : (⟨2, ![H, H]⟩ : Shape).Idx → EReal)
    (bu : Fin H → EReal) : (⟨2, ![N, H]⟩ : Shape).Idx → EReal := fun i =>
  gate h (cand x Wx bx) Wr Uz bu i * h i + (1 - gate h (cand x Wx bx) Wr Uz bu i) * cand x Wx bx i

/-! ## Row locality -/

/-- The candidate reads only the row it is asked for. -/
theorem cand_row {N N' K H : ℕ} (x : (⟨2, ![N, K]⟩ : Shape).Idx → EReal) (x' : (⟨2, ![N', K]⟩ : Shape).Idx → EReal)
    (Wx : (⟨2, ![K, H]⟩ : Shape).Idx → EReal) (bx : Fin H → EReal) (r : Fin N) (r' : Fin N') (j : Fin H)
    (hx : ∀ k : Fin K, x (ix2 r k) = x' (ix2 r' k)) :
    cand x Wx bx (ix2 r j) = cand x' Wx bx (ix2 r' j) := by
  unfold cand
  have : (∑ k : Fin K, x (ix2 r k) * Wx (ix2 k j)) = ∑ k : Fin K, x' (ix2 r' k) * Wx (ix2 k j) :=
    Finset.sum_congr rfl fun k _ => by rw [hx k]
  exact congrArg (fun s => Ideal.tanh (s + bx j)) this

/-- The gate reads only the row it is asked for, of the state and of the candidate. -/
theorem gate_row {N N' H : ℕ} (h z : (⟨2, ![N, H]⟩ : Shape).Idx → EReal) (h' z' : (⟨2, ![N', H]⟩ : Shape).Idx → EReal)
    (Wr Uz : (⟨2, ![H, H]⟩ : Shape).Idx → EReal) (bu : Fin H → EReal) (r : Fin N) (r' : Fin N') (j : Fin H)
    (hh : ∀ k : Fin H, h (ix2 r k) = h' (ix2 r' k)) (hz : ∀ k : Fin H, z (ix2 r k) = z' (ix2 r' k)) :
    gate h z Wr Uz bu (ix2 r j) = gate h' z' Wr Uz bu (ix2 r' j) := by
  unfold gate
  have e1 : (∑ k : Fin H, h (ix2 r k) * Wr (ix2 k j)) = ∑ k : Fin H, h' (ix2 r' k) * Wr (ix2 k j) :=
    Finset.sum_congr rfl fun k _ => by rw [hh k]
  have e2 : (∑ k : Fin H, z (ix2 r k) * Uz (ix2 k j)) = ∑ k : Fin H, z' (ix2 r' k) * Uz (ix2 k j) :=
    Finset.sum_congr rfl fun k _ => by rw [hz k]
  show Ideal.logistic (((∑ k : Fin H, h (ix2 r k) * Wr (ix2 k j)) + ∑ k : Fin H, z (ix2 r k) * Uz (ix2 k j)) + bu j)
    = Ideal.logistic (((∑ k : Fin H, h' (ix2 r' k) * Wr (ix2 k j)) + ∑ k : Fin H, z' (ix2 r' k) * Uz (ix2 k j)) + bu j)
  rw [e1, e2]

/-- The cell reads only the row it is asked for: two states and two inputs that agree on a row give the same row. -/
theorem cell_row {N N' K H : ℕ} (h : (⟨2, ![N, H]⟩ : Shape).Idx → EReal) (h' : (⟨2, ![N', H]⟩ : Shape).Idx → EReal)
    (x : (⟨2, ![N, K]⟩ : Shape).Idx → EReal) (x' : (⟨2, ![N', K]⟩ : Shape).Idx → EReal)
    (Wx : (⟨2, ![K, H]⟩ : Shape).Idx → EReal) (bx : Fin H → EReal) (Wr Uz : (⟨2, ![H, H]⟩ : Shape).Idx → EReal)
    (bu : Fin H → EReal) (r : Fin N) (r' : Fin N') (j : Fin H)
    (hh : ∀ k : Fin H, h (ix2 r k) = h' (ix2 r' k)) (hx : ∀ k : Fin K, x (ix2 r k) = x' (ix2 r' k)) :
    cell h x Wx bx Wr Uz bu (ix2 r j) = cell h' x' Wx bx Wr Uz bu (ix2 r' j) := by
  have hc : ∀ k : Fin H, cand x Wx bx (ix2 r k) = cand x' Wx bx (ix2 r' k) := fun k => cand_row x x' Wx bx r r' k hx
  have hg := gate_row h (cand x Wx bx) h' (cand x' Wx bx) Wr Uz bu r r' j hh hc
  show gate h (cand x Wx bx) Wr Uz bu (ix2 r j) * h (ix2 r j)
      + (1 - gate h (cand x Wx bx) Wr Uz bu (ix2 r j)) * cand x Wx bx (ix2 r j)
    = gate h' (cand x' Wx bx) Wr Uz bu (ix2 r' j) * h' (ix2 r' j)
      + (1 - gate h' (cand x' Wx bx) Wr Uz bu (ix2 r' j)) * cand x' Wx bx (ix2 r' j)
  rw [hg, hh j, hc j]

/-! ## A contraction over two operands side by side against two stacked weight matrices -/

/-- A sum over Fin (H + H) of products whose factors are given piecewise — below H and from H on — is the sum of
    the two pieces' sums. -/
theorem sum_stacked {H : ℕ} (a w : Fin (H + H) → EReal) (a₁ a₂ w₁ w₂ : Fin H → EReal)
    (ha₁ : ∀ k : Fin H, a (Fin.castAdd H k) = a₁ k) (ha₂ : ∀ k : Fin H, a (Fin.natAdd H k) = a₂ k)
    (hw₁ : ∀ k : Fin H, w (Fin.castAdd H k) = w₁ k) (hw₂ : ∀ k : Fin H, w (Fin.natAdd H k) = w₂ k) :
    (∑ k : Fin (H + H), a k * w k) = (∑ k : Fin H, a₁ k * w₁ k) + ∑ k : Fin H, a₂ k * w₂ k := by
  rw [Fin.sum_univ_add]
  exact congrArg₂ (· + ·) (Finset.sum_congr rfl fun k _ => by rw [ha₁ k, hw₁ k])
    (Finset.sum_congr rfl fun k _ => by rw [ha₂ k, hw₂ k])

end Cert.GatedCell

end
-- ==== Proof.LibGatedCellSpell.lean ====
/-
  The two spellings of the gated cell (the cell itself: cell, cand, gate), read onto it at the extended reals.

  The vector dialect's: the candidate is a matrix-unit product into a zero accumulator plus a one-row bias broadcast down
  the rows, through tanh; the gate is ONE product of width H + H — the state and the candidate side by side (a
  concatenation along the columns) against a weight matrix whose upper H rows are Wr and lower H rows are Uz —
  plus a bias, through the logistic function; the result is  u * h + (1.0 - u) * z .  The changes of float format on the way
  (to the narrow format before each product) are the identity on the extended reals.

  The host's: two separate H-wide dot products added, a bias broadcast in two steps, the logistic function written out as
  1.0 / (1.0 + exp (- s)) , which IS the logistic function's definition on the extended reals once the word 1.0 is read
  as the number 1.
-/
import Idealize.ShloMosaic.PureOps.Ideal
import Idealize.ShloMosaic.PureOps.Ideal.Laws
import Idealize.ShloMosaic.Lib.ValueIdx
import Idealize.ShloMosaic.Lib.Pipeline.Value
import proofs.«412722_j52716428591258_1_alg».proof.Proof.LibMlp
import proofs.«412722_j52716428591258_1_alg».proof.Proof.LibGatedCell

noncomputable section

open Idealize.ShloMosaic Idealize.ShloMosaic.ValueIdx

namespace Cert.GatedCell

open Cert.Mlp (plain_sum bcast_row bcast_two row vec)

/-! ## Two arrays side by side, and one on top of the other, read at an index -/

section Pieces
variable {α : Type}

/-- Left of the seam, two arrays side by side read the first. -/
theorem beside_left {N H : ℕ} (hc : Shape.Concatenates [(⟨2, ![N, H]⟩ : Shape), ⟨2, ![N, H]⟩] ⟨2, ![N, H + H]⟩ 1)
    (a b : (⟨2, ![N, H]⟩ : Shape).Idx → α) (p : Fin N) (k : Fin H) :
    concatenate (⟨2, ![N, H + H]⟩ : Shape) 1 [⟨⟨2, ![N, H]⟩, a⟩, ⟨⟨2, ![N, H]⟩, b⟩] hc (ix2 p (Fin.castAdd H k)) = a (ix2 p k) :=
  concatenate_pair_apply_left 1 a b hc (ix2 p (Fin.castAdd H k)) rfl (ix2 p k)
    fun c => match c with | ⟨0, _⟩ => rfl | ⟨1, _⟩ => rfl

/-- Right of the seam they read the second, the column counted from the seam. -/
theorem beside_right {N H : ℕ} (hc : Shape.Concatenates [(⟨2, ![N, H]⟩ : Shape), ⟨2, ![N, H]⟩] ⟨2, ![N, H + H]⟩ 1)
    (a b : (⟨2, ![N, H]⟩ : Shape).Idx → α) (p : Fin N) (k : Fin H) :
    concatenate (⟨2, ![N, H + H]⟩ : Shape) 1 [⟨⟨2, ![N, H]⟩, a⟩, ⟨⟨2, ![N, H]⟩, b⟩] hc (ix2 p (Fin.natAdd H k)) = b (ix2 p k) :=
  concatenate_pair_apply_right 1 a b hc (ix2 p (Fin.natAdd H k)) rfl rfl (ix2 p k)
    (fun c hne => match c, hne with | ⟨0, _⟩, _ => rfl | ⟨1, _⟩, h => absurd rfl h)
    (by show k.val + H = H + k.val; omega)

/-- Above the seam, two matrices one on top of the other read the upper. -/
theorem stacked_upper {H : ℕ} (hc : Shape.Concatenates [(⟨2, ![H, H]⟩ : Shape), ⟨2, ![H, H]⟩] ⟨2, ![H + H, H]⟩ 0)
    (A B : (⟨2, ![H, H]⟩ : Shape).Idx → α) (k q : Fin H) :
    concatenate (⟨2, ![H + H, H]⟩ : Shape) 0 [⟨⟨2, ![H, H]⟩, A⟩, ⟨⟨2, ![H, H]⟩, B⟩] hc (ix2 (Fin.castAdd H k) q) = A (ix2 k q) :=
  concatenate_pair_apply_left 0 A B hc (ix2 (Fin.castAdd H k) q) rfl (ix2 k q)
    fun c => match c with | ⟨0, _⟩ => rfl | ⟨1, _⟩ => rfl

/-- Below the seam they read the lower, the row counted from the seam. -/
theorem stacked_lower {H : ℕ} (hc : Shape.Concatenates [(⟨2, ![H, H]⟩ : Shape), ⟨2, ![H, H]⟩] ⟨2, ![H + H, H]⟩ 0)
    (A B : (⟨2, ![H, H]⟩ : Shape).Idx → α) (k q : Fin H) :
    concatenate (⟨2, ![H + H, H]⟩ : Shape) 0 [⟨⟨2, ![H, H]⟩, A⟩, ⟨⟨2, ![H, H]⟩, B⟩] hc (ix2 (Fin.natAdd H k) q) = B (ix2 k q) :=
  concatenate_pair_apply_right 0 A B hc (ix2 (Fin.natAdd H k) q) rfl rfl (ix2 k q)
    (fun c hne => match c, hne with | ⟨0, _⟩, h => absurd rfl h | ⟨1, _⟩, _ => rfl)
    (by show k.val + H = H + k.val; omega)

end Pieces

/-! ## The vector dialect's spelling -/

/-- The candidate as the vector dialect spells it. -/
def vcand {N K H : ℕ} (d : DotDims ⟨2, ![N, K]⟩ ⟨2, ![K, H]⟩ ⟨2, ![N, H]⟩)
    (hb : (⟨2, ![1, H]⟩ : Shape).Broadcasts ⟨2, ![N, H]⟩)
    (x : FVec Ideal ⟨2, ![N, K]⟩ .bf16) (Wx : FVec Ideal ⟨2, ![K, H]⟩ .bf16) (bx : FVec Ideal ⟨2, ![1, H]⟩ .f32) :
    FVec Ideal ⟨2, ![N, H]⟩ .f32 :=
  tanh (addf (matmul d none x Wx (constant ⟨2, ![N, H]⟩ .f32 0x00000000#32)) (broadcastTo ⟨2, ![N, H]⟩ bx hb))

/-- The gate as the vector dialect spells it: one product over the state and the candidate side by side. -/
def vgate {N H : ℕ} (d : DotDims ⟨2, ![N, H + H]⟩ ⟨2, ![H + H, H]⟩ ⟨2, ![N, H]⟩)
    (hb : (⟨2, ![1, H]⟩ : Shape).Broadcasts ⟨2, ![N, H]⟩)
    (hc : Shape.Concatenates [(⟨2, ![N, H]⟩ : Shape), ⟨2, ![N, H]⟩] ⟨2, ![N, H + H]⟩ 1)
    (ht : FTy.bits .bf16 < FTy.bits .f32)
    (h z : FVec Ideal ⟨2, ![N, H]⟩ .f32) (W : FVec Ideal ⟨2, ![H + H, H]⟩ .bf16) (bu : FVec Ideal ⟨2, ![1, H]⟩ .f32) :
    FVec Ideal ⟨2, ![N, H]⟩ .f32 :=
  logistic (addf (matmul d none
      (concatenate (⟨2, ![N, H + H]⟩ : Shape) 1 [⟨⟨2, ![N, H]⟩, truncf .bf16 h ht⟩, ⟨⟨2, ![N, H]⟩, truncf .bf16 z ht⟩] hc)
      W (constant ⟨2, ![N, H]⟩ .f32 0x00000000#32)) (broadcastTo ⟨2, ![N, H]⟩ bu hb))

/-- The vector dialect's candidate, entry by entry, is the cell's. -/
theorem vcand_apply {N K H : ℕ} (d : DotDims ⟨2, ![N, K]⟩ ⟨2, ![K, H]⟩ ⟨2, ![N, H]⟩) (hd : d = DotDims.plain N K H)
    (hb : (⟨2, ![1, H]⟩ : Shape).Broadcasts ⟨2, ![N, H]⟩)
    (x : FVec Ideal ⟨2, ![N, K]⟩ .bf16) (Wx : FVec Ideal ⟨2, ![K, H]⟩ .bf16) (bx : FVec Ideal ⟨2, ![1, H]⟩ .f32)
    (p : Fin N) (q : Fin H) : vcand d hb x Wx bx (ix2 p q) = cand x Wx (row bx) (ix2 p q) := by
  subst hd
  have hm : matmul (DotDims.plain N K H) none x Wx (constant ⟨2, ![N, H]⟩ .f32 0x00000000#32) (ix2 p q)
      = ∑ k : Fin K, x (ix2 p k) * Wx (ix2 k q) :=
    (Ideal.matmul_constant_zero_apply (DotDims.plain N K H) none x Wx (ix2 p q)).trans (plain_sum x Wx (ix2 p q))
  show Ideal.tanh (matmul (DotDims.plain N K H) none x Wx (constant ⟨2, ![N, H]⟩ .f32 0x00000000#32) (ix2 p q)
      + broadcastTo ⟨2, ![N, H]⟩ bx hb (ix2 p q)) = Ideal.tanh ((∑ k : Fin K, x (ix2 p k) * Wx (ix2 k q)) + bx (ix2 0 q))
  rw [hm, bcast_row hb bx p q]

/-- The vector dialect's gate, entry by entry, is the cell's: the merged product splits at the seam. -/
theorem vgate_apply {N H : ℕ} (d : DotDims ⟨2, ![N, H + H]⟩ ⟨2, ![H + H, H]⟩ ⟨2, ![N, H]⟩) (hd : d = DotDims.plain N (H + H) H)
    (hb : (⟨2, ![1, H]⟩ : Shape).Broadcasts ⟨2, ![N, H]⟩)
    (hc : Shape.Concatenates [(⟨2, ![N, H]⟩ : Shape), ⟨2, ![N, H]⟩] ⟨2, ![N, H + H]⟩ 1)
    (ht : FTy.bits .bf16 < FTy.bits .f32)
    (h z : FVec Ideal ⟨2, ![N, H]⟩ .f32) (W : FVec Ideal ⟨2, ![H + H, H]⟩ .bf16) (bu : FVec Ideal ⟨2, ![1, H]⟩ .f32)
    (Wr Uz : (⟨2, ![H, H]⟩ : Shape).Idx → EReal)
    (hWr : ∀ k q : Fin H, W (ix2 (Fin.castAdd H k) q) = Wr (ix2 k q))
    (hUz : ∀ k q : Fin H, W (ix2 (Fin.natAdd H k) q) = Uz (ix2 k q))
    (p : Fin N) (q : Fin H) : vgate d hb hc ht h z W bu (ix2 p q) = gate h z Wr Uz (row bu) (ix2 p q) := by
  subst hd
  have hm : matmul (DotDims.plain N (H + H) H) none
        (concatenate (⟨2, ![N, H + H]⟩ : Shape) 1 [⟨⟨2, ![N, H]⟩, truncf .bf16 h ht⟩, ⟨⟨2, ![N, H]⟩, truncf .bf16 z ht⟩] hc)
        W (constant ⟨2, ![N, H]⟩ .f32 0x00000000#32) (ix2 p q)
      = (∑ k : Fin H, h (ix2 p k) * Wr (ix2 k q)) + ∑ k : Fin H, z (ix2 p k) * Uz (ix2 k q) :=
    ((Ideal.matmul_constant_zero_apply (DotDims.plain N (H + H) H) none _ W (ix2 p q)).trans
      (plain_sum _ W (ix2 p q))).trans
      (sum_stacked _ _ (fun k => h (ix2 p k)) (fun k => z (ix2 p k)) (fun k => Wr (ix2 k q)) (fun k => Uz (ix2 k q))
        (fun k => beside_left hc _ _ p k) (fun k => beside_right hc _ _ p k) (fun k => hWr k q) (fun k => hUz k q))
  show Ideal.logistic (matmul (DotDims.plain N (H + H) H) none
        (concatenate (⟨2, ![N, H + H]⟩ : Shape) 1 [⟨⟨2, ![N, H]⟩, truncf .bf16 h ht⟩, ⟨⟨2, ![N, H]⟩, truncf .bf16 z ht⟩] hc)
        W (constant ⟨2, ![N, H]⟩ .f32 0x00000000#32) (ix2 p q) + broadcastTo ⟨2, ![N, H]⟩ bu hb (ix2 p q))
    = Ideal.logistic (((∑ k : Fin H, h (ix2 p k) * Wr (ix2 k q)) + ∑ k : Fin H, z (ix2 p k) * Uz (ix2 k q)) + bu (ix2 0 q))
  rw [hm, bcast_row hb bu p q]

/-- The vector dialect's cell is the cell. -/
theorem vec_cell {N K H : ℕ} (d1 : DotDims ⟨2, ![N, K]⟩ ⟨2, ![K, H]⟩ ⟨2, ![N, H]⟩) (hd1 : d1 = DotDims.plain N K H)
    (d2 : DotDims ⟨2, ![N, H + H]⟩ ⟨2, ![H + H, H]⟩ ⟨2, ![N, H]⟩) (hd2 : d2 = DotDims.plain N (H + H) H)
    (hb : (⟨2, ![1, H]⟩ : Shape).Broadcasts ⟨2, ![N, H]⟩)
    (hc : Shape.Concatenates [(⟨2, ![N, H]⟩ : Shape), ⟨2, ![N, H]⟩] ⟨2, ![N, H + H]⟩ 1)
    (ht : FTy.bits .bf16 < FTy.bits .f32)
    (h : FVec Ideal ⟨2, ![N, H]⟩ .f32) (x : FVec Ideal ⟨2, ![N, K]⟩ .bf16) (Wx : FVec Ideal ⟨2, ![K, H]⟩ .bf16)
    (bx : FVec Ideal ⟨2, ![1, H]⟩ .f32) (W : FVec Ideal ⟨2, ![H + H, H]⟩ .bf16) (bu : FVec Ideal ⟨2, ![1, H]⟩ .f32)
    (Wr Uz : (⟨2, ![H, H]⟩ : Shape).Idx → EReal)
    (hWr : ∀ k q : Fin H, W (ix2 (Fin.castAdd H k) q) = Wr (ix2 k q))
    (hUz : ∀ k q : Fin H, W (ix2 (Fin.natAdd H k) q) = Uz (ix2 k q)) :
    addf (mulf (vgate d2 hb hc ht h (vcand d1 hb x Wx bx) W bu) h)
        (mulf (subf (broadcast ⟨2, ![N, H]⟩ (Scalar.ofBits .f32 0x3F800000#32)) (vgate d2 hb hc ht h (vcand d1 hb x Wx bx) W bu))
          (vcand d1 hb x Wx bx))
      = cell h x Wx (row bx) Wr Uz (row bu) := by
  funext i
  obtain ⟨p, q, rfl⟩ : ∃ (p : Fin N) (q : Fin H), i = ix2 p q := ⟨i 0, i 1, eq_ix2 i⟩
  have hu : vgate d2 hb hc ht h (vcand d1 hb x Wx bx) W bu (ix2 p q) = gate h (cand x Wx (row bx)) Wr Uz (row bu) (ix2 p q) :=
    (vgate_apply d2 hd2 hb hc ht h (vcand d1 hb x Wx bx) W bu Wr Uz hWr hUz p q).trans
      (gate_row h (vcand d1 hb x Wx bx) h (cand x Wx (row bx)) Wr Uz (row bu) p p q (fun _ => rfl)
        (fun k => vcand_apply d1 hd1 hb x Wx bx p k))
  show vgate d2 hb hc ht h (vcand d1 hb x Wx bx) W bu (ix2 p q) * h (ix2 p q)
      + (Ideal.ofBits .f32 0x3F800000#32 - vgate d2 hb hc ht h (vcand d1 hb x Wx bx) W bu (ix2 p q)) * vcand d1 hb x Wx bx (ix2 p q)
    = gate h (cand x Wx (row bx)) Wr Uz (row bu) (ix2 p q) * h (ix2 p q)
      + (1 - gate h (cand x Wx (row bx)) Wr Uz (row bu) (ix2 p q)) * cand x Wx (row bx) (ix2 p q)
  rw [hu, vcand_apply d1 hd1 hb x Wx bx p q, ofBits_one]

/-! ## The host's spelling -/

/-- The candidate as the host spells it. -/
def hcand {N K H : ℕ} (d : DotDims ⟨2, ![N, K]⟩ ⟨2, ![K, H]⟩ ⟨2, ![N, H]⟩)
    (h1 : (⟨1, ![H]⟩ : Shape).BroadcastsInDim ⟨2, ![1, H]⟩ ![1])
    (h2 : (⟨2, ![1, H]⟩ : Shape).BroadcastsInDim ⟨2, ![N, H]⟩ ![0, 1])
    (x : FVec Ideal ⟨2, ![N, K]⟩ .f32) (Wx : FVec Ideal ⟨2, ![K, H]⟩ .f32) (bx : FVec Ideal ⟨1, ![H]⟩ .f32) :
    FVec Ideal ⟨2, ![N, H]⟩ .f32 :=
  Host.tanh (addf (Host.dotGeneral d none x Wx)
    (broadcastInDim (⟨2, ![N, H]⟩ : Shape) ![0, 1] h2 (broadcastInDim (⟨2, ![1, H]⟩ : Shape) ![1] h1 bx)))

/-- The gate as the host spells it: two products added, and the logistic function written out. -/
def hgate {N H : ℕ} (d : DotDims ⟨2, ![N, H]⟩ ⟨2, ![H, H]⟩ ⟨2, ![N, H]⟩)
    (h0 : (⟨0, ![]⟩ : Shape).BroadcastsInDim ⟨2, ![N, H]⟩ ![])
    (h1 : (⟨1, ![H]⟩ : Shape).BroadcastsInDim ⟨2, ![1, H]⟩ ![1])
    (h2 : (⟨2, ![1, H]⟩ : Shape).BroadcastsInDim ⟨2, ![N, H]⟩ ![0, 1])
    (h z : FVec Ideal ⟨2, ![N, H]⟩ .f32) (Wr Uz : FVec Ideal ⟨2, ![H, H]⟩ .f32) (bu : FVec Ideal ⟨1, ![H]⟩ .f32) :
    FVec Ideal ⟨2, ![N, H]⟩ .f32 :=
  Host.divf (broadcastInDim (⟨2, ![N, H]⟩ : Shape) ![] h0 (constant (⟨0, ![]⟩ : Shape) .f32 0x3F800000#32))
    (addf (broadcastInDim (⟨2, ![N, H]⟩ : Shape) ![] h0 (constant (⟨0, ![]⟩ : Shape) .f32 0x3F800000#32))
      (Host.exp (Host.negf (addf (addf (Host.dotGeneral d none h Wr) (Host.dotGeneral d none z Uz))
        (broadcastInDim (⟨2, ![N, H]⟩ : Shape) ![0, 1] h2 (broadcastInDim (⟨2, ![1, H]⟩ : Shape) ![1] h1 bu))))))

/-- The host's candidate, entry by entry, is the cell's. -/
theorem hcand_apply {N K H : ℕ} (d : DotDims ⟨2, ![N, K]⟩ ⟨2, ![K, H]⟩ ⟨2, ![N, H]⟩) (hd : d = DotDims.plain N K H)
    (h1 : (⟨1, ![H]⟩ : Shape).BroadcastsInDim ⟨2, ![1, H]⟩ ![1])
    (h2 : (⟨2, ![1, H]⟩ : Shape).BroadcastsInDim ⟨2, ![N, H]⟩ ![0, 1])
    (x : FVec Ideal ⟨2, ![N, K]⟩ .f32) (Wx : FVec Ideal ⟨2, ![K, H]⟩ .f32) (bx : FVec Ideal ⟨1, ![H]⟩ .f32)
    (p : Fin N) (q : Fin H) : hcand d h1 h2 x Wx bx (ix2 p q) = cand x Wx (vec bx) (ix2 p q) := by
  subst hd
  have hm : Host.dotGeneral (DotDims.plain N K H) none x Wx (ix2 p q) = ∑ k : Fin K, x (ix2 p k) * Wx (ix2 k q) :=
    (Ideal.dotGeneral_apply (DotDims.plain N K H) none .single x Wx (ix2 p q)).trans (plain_sum x Wx (ix2 p q))
  show Ideal.tanh (Host.dotGeneral (DotDims.plain N K H) none x Wx (ix2 p q)
      + broadcastInDim (⟨2, ![N, H]⟩ : Shape) ![0, 1] h2 (broadcastInDim (⟨2, ![1, H]⟩ : Shape) ![1] h1 bx) (ix2 p q))
    = Ideal.tanh ((∑ k : Fin K, x (ix2 p k) * Wx (ix2 k q)) + bx (ix1 q))
  rw [hm, bcast_two h1 h2 bx p q]

/-- The host's gate, entry by entry, is the cell's: 1.0 / (1.0 + exp (- s)) is the logistic function of s. -/
theorem hgate_apply {N H : ℕ} (d : DotDims ⟨2, ![N, H]⟩ ⟨2, ![H, H]⟩ ⟨2, ![N, H]⟩) (hd : d = DotDims.plain N H H)
    (h0 : (⟨0, ![]⟩ : Shape).BroadcastsInDim ⟨2, ![N, H]⟩ ![])
    (h1 : (⟨1, ![H]⟩ : Shape).BroadcastsInDim ⟨2, ![1, H]⟩ ![1])
    (h2 : (⟨2, ![1, H]⟩ : Shape).BroadcastsInDim ⟨2, ![N, H]⟩ ![0, 1])
    (h z : FVec Ideal ⟨2, ![N, H]⟩ .f32) (Wr Uz : FVec Ideal ⟨2, ![H, H]⟩ .f32) (bu : FVec Ideal ⟨1, ![H]⟩ .f32)
    (p : Fin N) (q : Fin H) : hgate d h0 h1 h2 h z Wr Uz bu (ix2 p q) = gate h z Wr Uz (vec bu) (ix2 p q) := by
  subst hd
  have hm1 : Host.dotGeneral (DotDims.plain N H H) none h Wr (ix2 p q) = ∑ k : Fin H, h (ix2 p k) * Wr (ix2 k q) :=
    (Ideal.dotGeneral_apply (DotDims.plain N H H) none .single h Wr (ix2 p q)).trans (plain_sum h Wr (ix2 p q))
  have hm2 : Host.dotGeneral (DotDims.plain N H H) none z Uz (ix2 p q) = ∑ k : Fin H, z (ix2 p k) * Uz (ix2 k q) :=
    (Ideal.dotGeneral_apply (DotDims.plain N H H) none .single z Uz (ix2 p q)).trans (plain_sum z Uz (ix2 p q))
  show Ideal.div (Ideal.ofBits .f32 0x3F800000#32) (Ideal.ofBits .f32 0x3F800000#32
      + Ideal.exp (-((Host.dotGeneral (DotDims.plain N H H) none h Wr (ix2 p q) + Host.dotGeneral (DotDims.plain N H H) none z Uz (ix2 p q))
        + broadcastInDim (⟨2, ![N, H]⟩ : Shape) ![0, 1] h2 (broadcastInDim (⟨2, ![1, H]⟩ : Shape) ![1] h1 bu) (ix2 p q))))
    = Ideal.div 1 (1 + Ideal.exp (-(((∑ k : Fin H, h (ix2 p k) * Wr (ix2 k q)) + ∑ k : Fin H, z (ix2 p k) * Uz (ix2 k q)) + bu (ix1 q))))
  rw [hm1, hm2, bcast_two h1 h2 bu p q, ofBits_one]

/-- The host's cell is the cell. -/
theorem host_cell {N K H : ℕ} (d1 : DotDims ⟨2, ![N, K]⟩ ⟨2, ![K, H]⟩ ⟨2, ![N, H]⟩) (hd1 : d1 = DotDims.plain N K H)
    (d2 : DotDims ⟨2, ![N, H]⟩ ⟨2, ![H, H]⟩ ⟨2, ![N, H]⟩) (hd2 : d2 = DotDims.plain N H H)
    (h0 : (⟨0, ![]⟩ : Shape).BroadcastsInDim ⟨2, ![N, H]⟩ ![])
    (h1 : (⟨1, ![H]⟩ : Shape).BroadcastsInDim ⟨2, ![1, H]⟩ ![1])
    (h2 : (⟨2, ![1, H]⟩ : Shape).BroadcastsInDim ⟨2, ![N, H]⟩ ![0, 1])
    (h : FVec Ideal ⟨2, ![N, H]⟩ .f32) (x : FVec Ideal ⟨2, ![N, K]⟩ .f32) (Wx : FVec Ideal ⟨2, ![K, H]⟩ .f32)
    (bx : FVec Ideal ⟨1, ![H]⟩ .f32) (Wr Uz : FVec Ideal ⟨2, ![H, H]⟩ .f32) (bu : FVec Ideal ⟨1, ![H]⟩ .f32) :
    addf (mulf (hgate d2 h0 h1 h2 h (hcand d1 h1 h2 x Wx bx) Wr Uz bu) h)
        (mulf (subf (broadcastInDim (⟨2, ![N, H]⟩ : Shape) ![] h0 (constant (⟨0, ![]⟩ : Shape) .f32 0x3F800000#32))
            (hgate d2 h0 h1 h2 h (hcand d1 h1 h2 x Wx bx) Wr Uz bu))
          (hcand d1 h1 h2 x Wx bx))
      = cell h x Wx (vec bx) Wr Uz (vec bu) := by
  funext i
  obtain ⟨p, q, rfl⟩ : ∃ (p : Fin N) (q : Fin H), i = ix2 p q := ⟨i 0, i 1, eq_ix2 i⟩
  have hu : hgate d2 h0 h1 h2 h (hcand d1 h1 h2 x Wx bx) Wr Uz bu (ix2 p q) = gate h (cand x Wx (vec bx)) Wr Uz (vec bu) (ix2 p q) :=
    (hgate_apply d2 hd2 h0 h1 h2 h (hcand d1 h1 h2 x Wx bx) Wr Uz bu p q).trans
      (gate_row h (hcand d1 h1 h2 x Wx bx) h (cand x Wx (vec bx)) Wr Uz (vec bu) p p q (fun _ => rfl)
        (fun k => hcand_apply d1 hd1 h1 h2 x Wx bx p k))
  show hgate d2 h0 h1 h2 h (hcand d1 h1 h2 x Wx bx) Wr Uz bu (ix2 p q) * h (ix2 p q)
      + (Ideal.ofBits .f32 0x3F800000#32 - hgate d2 h0 h1 h2 h (hcand d1 h1 h2 x Wx bx) Wr Uz bu (ix2 p q)) * hcand d1 h1 h2 x Wx bx (ix2 p q)
    = gate h (cand x Wx (vec bx)) Wr Uz (vec bu) (ix2 p q) * h (ix2 p q)
      + (1 - gate h (cand x Wx (vec bx)) Wr Uz (vec bu) (ix2 p q)) * cand x Wx (vec bx) (ix2 p q)
  rw [hu, hcand_apply d1 hd1 h1 h2 x Wx bx p q, ofBits_one]

end Cert.GatedCell

end
-- ==== Proof.Bond.lean ====
/-
  The score of a bond, as a function on the extended reals over plain coordinates.

  A bond joins two atoms with feature rows a and b (H entries each).  A three-stage perceptron is applied to the row
  [a, b] and to the row [b, a], and the two results are added.  The first stage's weight matrix has H + H rows; on the
  row [a, b] its product is the sum of a against the upper H rows and b against the lower H rows, because a finite sum
  over Fin (H + H) splits at H: only commutativity and associativity of + on the extended reals, no finiteness.

      lin x W c      q  =  (sum_k x k * W (k, q)) + c q                       one dense stage on a row
      lin2 a b Wa Wb c q  =  ((sum_k a k * Wa (k, q)) + sum_k b k * Wb (k, q)) + c q   the first stage on a row in two halves
      relu x         q  =  max (x q) 0
      tail y         =  lin (relu (lin (relu y) W2 b2)) W3 b3                  what follows the first stage
      score a b      j  =  tail (lin2 a b ..) j + tail (lin2 b a ..) j

  Two spellings of these stages are read onto them, entry by entry: the vector dialect's (a matrix-unit product into a zero
  accumulator, the two halves of the first stage as two products, one-row biases broadcast down the rows, a change to the
  narrow float format before each product, which is the identity on the extended reals) and the host's (one product of
  the two gathered arrays side by side against the whole first matrix, biases broadcast in two steps).
-/
import Idealize.ShloMosaic.PureOps.Ideal
import Idealize.ShloMosaic.PureOps.Ideal.Laws
import Idealize.ShloMosaic.Lib.ValueIdx
import Idealize.ShloMosaic.Lib.Pipeline.Value
import proofs.«412722_j52716428591258_1_alg».proof.Proof.LibMlp
import proofs.«412722_j52716428591258_1_alg».proof.Proof.LibGatedCell
import proofs.«412722_j52716428591258_1_alg».proof.Proof.LibGatedCellSpell

noncomputable section

open Idealize.ShloMosaic Idealize.ShloMosaic.ValueIdx

namespace Cert.Bond

open Cert.Mlp (plain_sum bcast_row bcast_two row vec zero)
open Cert.GatedCell (sum_stacked beside_left beside_right)

/-! ## The stages -/

/-- One dense stage on a row. -/
def lin {K H : ℕ} (x : Fin K → EReal) (W : (⟨2, ![K, H]⟩ : Shape).Idx → EReal) (c : Fin H → EReal) : Fin H → EReal :=
  fun q => (∑ k : Fin K, x k * W (ix2 k q)) + c q

/-- The first stage on a row given in two halves, each against its own block of the weights. -/
def lin2 {H J : ℕ} (a b : Fin H → EReal) (Wa Wb : (⟨2, ![H, J]⟩ : Shape).Idx → EReal) (c : Fin J → EReal) : Fin J → EReal :=
  fun q => ((∑ k : Fin H, a k * Wa (ix2 k q)) + ∑ k : Fin H, b k * Wb (ix2 k q)) + c q

/-- The rectifier on a row. -/
def relu {H : ℕ} (x : Fin H → EReal) : Fin H → EReal := fun q => max (x q) zero

/-- The second and third stages, applied to the first stage's row. -/
def tail {J L M : ℕ} (y : Fin J → EReal) (W2 : (⟨2, ![J, L]⟩ : Shape).Idx → EReal) (b2 : Fin L → EReal)
    (W3 : (⟨2, ![L, M]⟩ : Shape).Idx → EReal) (b3 : Fin M → EReal) : Fin M → EReal :=
  lin (relu (lin (relu y) W2 b2)) W3 b3

/-- The score of a bond with end rows a and b: the perceptron of [a, b] plus the perceptron of [b, a]. -/
def score {H J L M : ℕ} (a b : Fin H → EReal) (Wa Wb : (⟨2, ![H, J]⟩ : Shape).Idx → EReal) (b1 : Fin J → EReal)
    (W2 : (⟨2, ![J, L]⟩ : Shape).Idx → EReal) (b2 : Fin L → EReal) (W3 : (⟨2, ![L, M]⟩ : Shape).Idx → EReal)
    (b3 : Fin M → EReal) : Fin M → EReal := fun j =>
  tail (lin2 a b Wa Wb b1) W2 b2 W3 b3 j + tail (lin2 b a Wa Wb b1) W2 b2 W3 b3 j

/-- The scores of N bonds whose end rows are the rows of g1 and g2. -/
def scores {N H J L M : ℕ} (g1 g2 : (⟨2, ![N, H]⟩ : Shape).Idx → EReal) (Wa Wb : (⟨2, ![H, J]⟩ : Shape).Idx → EReal)
    (b1 : Fin J → EReal) (W2 : (⟨2, ![J, L]⟩ : Shape).Idx → EReal) (b2 : Fin L → EReal)
    (W3 : (⟨2, ![L, M]⟩ : Shape).Idx → EReal) (b3 : Fin M → EReal) : (⟨2, ![N, M]⟩ : Shape).Idx → EReal := fun i =>
  score (fun k => g1 (ix2 (i 0) k)) (fun k => g2 (ix2 (i 0) k)) Wa Wb b1 W2 b2 W3 b3 (i 1)

/-- The upper H rows of a matrix of H + H rows. -/
def upper {H J : ℕ} (W : (⟨2, ![H + H, J]⟩ : Shape).Idx → EReal) : (⟨2, ![H, J]⟩ : Shape).Idx → EReal :=
  fun i => W (ix2 (Fin.castAdd H (i 0)) (i 1))
/-- Its lower H rows. -/
def lower {H J : ℕ} (W : (⟨2, ![H + H, J]⟩ : Shape).Idx → EReal) : (⟨2, ![H, J]⟩ : Shape).Idx → EReal :=
  fun i => W (ix2 (Fin.natAdd H (i 0)) (i 1))

/-! ## The first stage of two rows side by side is the stage in two halves -/

theorem lin_beside {N H J : ℕ} (hc : Shape.Concatenates [(⟨2, ![N, H]⟩ : Shape), ⟨2, ![N, H]⟩] ⟨2, ![N, H + H]⟩ 1)
    (g1 g2 : (⟨2, ![N, H]⟩ : Shape).Idx → EReal) (W : (⟨2, ![H + H, J]⟩ : Shape).Idx → EReal) (c : Fin J → EReal)
    (p : Fin N) (q : Fin J) :
    lin (fun k => concatenate (⟨2, ![N, H + H]⟩ : Shape) 1 [⟨⟨2, ![N, H]⟩, g1⟩, ⟨⟨2, ![N, H]⟩, g2⟩] hc (ix2 p k)) W c q
      = lin2 (fun k => g1 (ix2 p k)) (fun k => g2 (ix2 p k)) (upper W) (lower W) c q :=
  congrArg (· + c q) (sum_stacked _ (fun k => W (ix2 k q)) (fun k => g1 (ix2 p k)) (fun k => g2 (ix2 p k))
    (fun k => upper W (ix2 k q)) (fun k => lower W (ix2 k q))
    (fun k => beside_left hc g1 g2 p k) (fun k => beside_right hc g1 g2 p k) (fun _ => rfl) (fun _ => rfl))

/-! ## The vector dialect's spelling -/

section Vector
variable {N H J L M : ℕ} {φa φw : FTy}

/-- A product into a zero accumulator plus a one-row bias broadcast down the rows. -/
theorem vec_lin_apply {K : ℕ} (d : DotDims ⟨2, ![N, K]⟩ ⟨2, ![K, H]⟩ ⟨2, ![N, H]⟩) (hd : d = DotDims.plain N K H)
    (hb : (⟨2, ![1, H]⟩ : Shape).Broadcasts ⟨2, ![N, H]⟩)
    (a : FVec Ideal ⟨2, ![N, K]⟩ φa) (W : FVec Ideal ⟨2, ![K, H]⟩ φw) (c : FVec Ideal ⟨2, ![1, H]⟩ .f32) (p : Fin N) (q : Fin H) :
    addf (matmul d none a W (constant ⟨2, ![N, H]⟩ .f32 0x00000000#32)) (broadcastTo ⟨2, ![N, H]⟩ c hb) (ix2 p q)
      = lin (fun k => a (ix2 p k)) W (row c) q := by
  subst hd
  have hm : matmul (DotDims.plain N K H) none a W (constant ⟨2, ![N, H]⟩ .f32 0x00000000#32) (ix2 p q)
      = ∑ k : Fin K, a (ix2 p k) * W (ix2 k q) :=
    (Ideal.matmul_constant_zero_apply (DotDims.plain N K H) none a W (ix2 p q)).trans (plain_sum a W (ix2 p q))
  show matmul (DotDims.plain N K H) none a W (constant ⟨2, ![N, H]⟩ .f32 0x00000000#32) (ix2 p q)
      + broadcastTo ⟨2, ![N, H]⟩ c hb (ix2 p q) = (∑ k : Fin K, a (ix2 p k) * W (ix2 k q)) + c (ix2 0 q)
  rw [hm, bcast_row hb c p q]

/-- Two products added, plus the bias: the first stage in two halves. -/
theorem vec_lin2_apply (d : DotDims ⟨2, ![N, H]⟩ ⟨2, ![H, J]⟩ ⟨2, ![N, J]⟩) (hd : d = DotDims.plain N H J)
    (hb : (⟨2, ![1, J]⟩ : Shape).Broadcasts ⟨2, ![N, J]⟩)
    (a b : FVec Ideal ⟨2, ![N, H]⟩ φa) (Wa Wb : FVec Ideal ⟨2, ![H, J]⟩ φw) (c : FVec Ideal ⟨2, ![1, J]⟩ .f32) (p : Fin N) (q : Fin J) :
    addf (addf (matmul d none a Wa (constant ⟨2, ![N, J]⟩ .f32 0x00000000#32))
        (matmul d none b Wb (constant ⟨2, ![N, J]⟩ .f32 0x00000000#32))) (broadcastTo ⟨2, ![N, J]⟩ c hb) (ix2 p q)
      = lin2 (fun k => a (ix2 p k)) (fun k => b (ix2 p k)) Wa Wb (row c) q := by
  subst hd
  have hm : ∀ (x : FVec Ideal ⟨2, ![N, H]⟩ φa) (W : FVec Ideal ⟨2, ![H, J]⟩ φw),
      matmul (DotDims.plain N H J) none x W (constant ⟨2, ![N, J]⟩ .f32 0x00000000#32) (ix2 p q)
        = ∑ k : Fin H, x (ix2 p k) * W (ix2 k q) := fun x W =>
    (Ideal.matmul_constant_zero_apply (DotDims.plain N H J) none x W (ix2 p q)).trans (plain_sum x W (ix2 p q))
  show (matmul (DotDims.plain N H J) none a Wa (constant ⟨2, ![N, J]⟩ .f32 0x00000000#32) (ix2 p q)
      + matmul (DotDims.plain N H J) none b Wb (constant ⟨2, ![N, J]⟩ .f32 0x00000000#32) (ix2 p q))
      + broadcastTo ⟨2, ![N, J]⟩ c hb (ix2 p q)
    = ((∑ k : Fin H, a (ix2 p k) * Wa (ix2 k q)) + ∑ k : Fin H, b (ix2 p k) * Wb (ix2 k q)) + c (ix2 0 q)
  rw [hm a Wa, hm b Wb, bcast_row hb c p q]

/-- The second and third stages after a first-stage block y: rectify, narrow, multiply, add the bias, twice. -/
theorem vec_tail_apply (d2 : DotDims ⟨2, ![N, J]⟩ ⟨2, ![J, L]⟩ ⟨2, ![N, L]⟩) (hd2 : d2 = DotDims.plain N J L)
    (d3 : DotDims ⟨2, ![N, L]⟩ ⟨2, ![L, M]⟩ ⟨2, ![N, M]⟩) (hd3 : d3 = DotDims.plain N L M)
    (hb2 : (⟨2, ![1, L]⟩ : Shape).Broadcasts ⟨2, ![N, L]⟩) (hb3 : (⟨2, ![1, M]⟩ : Shape).Broadcasts ⟨2, ![N, M]⟩)
    (ht : FTy.bits .bf16 < FTy.bits .f32)
    (y : FVec Ideal ⟨2, ![N, J]⟩ .f32) (W2 : FVec Ideal ⟨2, ![J, L]⟩ φw) (b2 : FVec Ideal ⟨2, ![1, L]⟩ .f32)
    (W3 : FVec Ideal ⟨2, ![L, M]⟩ φw) (b3 : FVec Ideal ⟨2, ![1, M]⟩ .f32) (p : Fin N) (j : Fin M) :
    addf (matmul d3 none
        (truncf .bf16 (maximumf (addf (matmul d2 none
            (truncf .bf16 (maximumf y (broadcast ⟨2, ![N, J]⟩ (Scalar.ofBits .f32 0x00000000#32))) ht) W2
            (constant ⟨2, ![N, L]⟩ .f32 0x00000000#32)) (broadcastTo ⟨2, ![N, L]⟩ b2 hb2))
          (broadcast ⟨2, ![N, L]⟩ (Scalar.ofBits .f32 0x00000000#32))) ht) W3
        (constant ⟨2, ![N, M]⟩ .f32 0x00000000#32)) (broadcastTo ⟨2, ![N, M]⟩ b3 hb3) (ix2 p j)
      = tail (fun k => y (ix2 p k)) W2 (row b2) W3 (row b3) j :=
  (vec_lin_apply d3 hd3 hb3 _ W3 b3 p j).trans (congrArg (fun x => lin x W3 (row b3) j) (funext fun k =>
    congrArg (fun t => max t zero) (vec_lin_apply d2 hd2 hb2 _ W2 b2 p k)))

end Vector

/-! ## The host's spelling -/

section Host
variable {N H J L M : ℕ}

/-- A dot product plus a bias broadcast in two steps. -/
theorem host_lin_apply {K : ℕ} (d : DotDims ⟨2, ![N, K]⟩ ⟨2, ![K, H]⟩ ⟨2, ![N, H]⟩) (hd : d = DotDims.plain N K H)
    (h1 : (⟨1, ![H]⟩ : Shape).BroadcastsInDim ⟨2, ![1, H]⟩ ![1])
    (h2 : (⟨2, ![1, H]⟩ : Shape).BroadcastsInDim ⟨2, ![N, H]⟩ ![0, 1])
    (a : FVec Ideal ⟨2, ![N, K]⟩ .f32) (W : FVec Ideal ⟨2, ![K, H]⟩ .f32) (c : FVec Ideal ⟨1, ![H]⟩ .f32) (p : Fin N) (q : Fin H) :
    addf (Host.dotGeneral d none a W)
        (broadcastInDim (⟨2, ![N, H]⟩ : Shape) ![0, 1] h2 (broadcastInDim (⟨2, ![1, H]⟩ : Shape) ![1] h1 c)) (ix2 p q)
      = lin (fun k => a (ix2 p k)) W (vec c) q := by
  subst hd
  have hm : Host.dotGeneral (DotDims.plain N K H) none a W (ix2 p q) = ∑ k : Fin K, a (ix2 p k) * W (ix2 k q) :=
    (Ideal.dotGeneral_apply (DotDims.plain N K H) none .single a W (ix2 p q)).trans (plain_sum a W (ix2 p q))
  show Host.dotGeneral (DotDims.plain N K H) none a W (ix2 p q)
      + broadcastInDim (⟨2, ![N, H]⟩ : Shape) ![0, 1] h2 (broadcastInDim (⟨2, ![1, H]⟩ : Shape) ![1] h1 c) (ix2 p q)
    = (∑ k : Fin K, a (ix2 p k) * W (ix2 k q)) + c (ix1 q)
  rw [hm, bcast_two h1 h2 c p q]

/-- The three stages as the host spells them, on any input array x of K columns. -/
theorem host_mlp_apply {K : ℕ} (d1 : DotDims ⟨2, ![N, K]⟩ ⟨2, ![K, J]⟩ ⟨2, ![N, J]⟩) (hd1 : d1 = DotDims.plain N K J)
    (d2 : DotDims ⟨2, ![N, J]⟩ ⟨2, ![J, L]⟩ ⟨2, ![N, L]⟩) (hd2 : d2 = DotDims.plain N J L)
    (d3 : DotDims ⟨2, ![N, L]⟩ ⟨2, ![L, M]⟩ ⟨2, ![N, M]⟩) (hd3 : d3 = DotDims.plain N L M)
    (z1 : (⟨0, ![]⟩ : Shape).BroadcastsInDim ⟨2, ![N, J]⟩ ![]) (z2 : (⟨0, ![]⟩ : Shape).BroadcastsInDim ⟨2, ![N, L]⟩ ![])
    (h1a : (⟨1, ![J]⟩ : Shape).BroadcastsInDim ⟨2, ![1, J]⟩ ![1]) (h2a : (⟨2, ![1, J]⟩ : Shape).BroadcastsInDim ⟨2, ![N, J]⟩ ![0, 1])
    (h1b : (⟨1, ![L]⟩ : Shape).BroadcastsInDim ⟨2, ![1, L]⟩ ![1]) (h2b : (⟨2, ![1, L]⟩ : Shape).BroadcastsInDim ⟨2, ![N, L]⟩ ![0, 1])
    (h1c : (⟨1, ![M]⟩ : Shape).BroadcastsInDim ⟨2, ![1, M]⟩ ![1]) (h2c : (⟨2, ![1, M]⟩ : Shape).BroadcastsInDim ⟨2, ![N, M]⟩ ![0, 1])
    (x : FVec Ideal ⟨2, ![N, K]⟩ .f32) (W1 : FVec Ideal ⟨2, ![K, J]⟩ .f32) (b1 : FVec Ideal ⟨1, ![J]⟩ .f32)
    (W2 : FVec Ideal ⟨2, ![J, L]⟩ .f32) (b2 : FVec Ideal ⟨1, ![L]⟩ .f32)
    (W3 : FVec Ideal ⟨2, ![L, M]⟩ .f32) (b3 : FVec Ideal ⟨1, ![M]⟩ .f32) (p : Fin N) (j : Fin M) :
    addf (Host.dotGeneral d3 none
        (maximumf (addf (Host.dotGeneral d2 none
            (maximumf (addf (Host.dotGeneral d1 none x W1)
                (broadcastInDim (⟨2, ![N, J]⟩ : Shape) ![0, 1] h2a (broadcastInDim (⟨2, ![1, J]⟩ : Shape) ![1] h1a b1)))
              (broadcastInDim (⟨2, ![N, J]⟩ : Shape) ![] z1 (constant (⟨0, ![]⟩ : Shape) .f32 0x00000000#32))) W2)
            (broadcastInDim (⟨2, ![N, L]⟩ : Shape) ![0, 1] h2b (broadcastInDim (⟨2, ![1, L]⟩ : Shape) ![1] h1b b2)))
          (broadcastInDim (⟨2, ![N, L]⟩ : Shape) ![] z2 (constant (⟨0, ![]⟩ : Shape) .f32 0x00000000#32))) W3)
        (broadcastInDim (⟨2, ![N, M]⟩ : Shape) ![0, 1] h2c (broadcastInDim (⟨2, ![1, M]⟩ : Shape) ![1] h1c b3)) (ix2 p j)
      = tail (lin (fun k => x (ix2 p k)) W1 (vec b1)) W2 (vec b2) W3 (vec b3) j :=
  (host_lin_apply d3 hd3 h1c h2c _ W3 b3 p j).trans (congrArg (fun x => lin x W3 (vec b3) j) (funext fun k =>
    congrArg (fun t => max t zero) ((host_lin_apply d2 hd2 h1b h2b _ W2 b2 p k).trans
      (congrArg (fun x => lin x W2 (vec b2) k) (funext fun l =>
        congrArg (fun t => max t zero) (host_lin_apply d1 hd1 h1a h2a x W1 b1 p l))))))

end Host

end Cert.Bond

end
-- ==== Proof.KernelBody.lean ====
/-
  What the kernel body leaves in its output block, entry by entry.

  The body loads a block of 2000 source rows x0 and 2000 destination rows x1 (128 entries each), the two halves x2, x3 of the
  first weight matrix, the remaining weights x5, x7 and the one-row biases x4, x6, x8, and stores ONE whole block of 2000 by 2
  values.  Row p of that block is the score of the bond whose end rows are row p of x0 and row p of x1: the forward
  perceptron (x0 against x2 plus x1 against x3) and the reverse one (x1 against x2 plus x0 against x3), each through two more
  stages, added.  The changes to the narrow float format before each product are the identity on the extended reals.
-/
import proofs.«412722_j52716428591258_1_alg».proof.Proof.Gen.KernelIdeal.Frame
import proofs.«412722_j52716428591258_1_alg».proof.Proof.Bond

noncomputable section

namespace Cert.KernelIdeal.Body

open Cert.KernelIdeal Cert.KernelIdeal.Gen Idealize.ShloMosaic Idealize.ShloMosaic.ValueIdx
open Cert.Bond
open Cert.Mlp (row)

/-- The zero offsets of a whole-block rectangle. -/
theorem hz : (![0, 0] : Fin 2 → Nat) = fun _ => 0 := funext fun a => by fin_cases a <;> rfl

/-- The 2000×128 by 128×128 product's dimension numbers are the plain ones. -/
theorem dot_wide : dot_S2000x128_S128x128_S2000x128_1_0_0_1_n_n = DotDims.plain 2000 128 128 := rfl
/-- So are the 2000×128 by 128×2 product's. -/
theorem dot_out : dot_S2000x128_S128x2_S2000x2_1_0_0_1_n_n = DotDims.plain 2000 128 2 := rfl

/-- The stored value at (p, j), over the loaded blocks. -/
theorem payload_apply (x0 x1 : Vec Ideal S2000x128 .f32) (x2 x3 : Vec Ideal S128x128 .f32) (x4 : Vec Ideal S1x128 .f32)
    (x5 : Vec Ideal S128x128 .f32) (x6 : Vec Ideal S1x128 .f32) (x7 : Vec Ideal S128x2 .f32) (x8 : Vec Ideal S1x2 .f32)
    (p : Fin 2000) (j : Fin 2) :
    k0_pay1 (F := Ideal) (k0_pay7 x5) (k0_pay8 x6) (k0_pay9 x7) (k0_pay10 x8) (k0_pay11 x0 x1 x2 x3 x4) (k0_pay12 x0 x1 x2 x3 x4)
        (Scalar.ofBits .f32 0x00000000#32) (ix2 p j)
      = score (fun k => x0 (ix2 p k)) (fun k => x1 (ix2 p k)) x2 x3 (row x4) x5 (row x6) x7 (row x8) j := by
  unfold k0_pay1 k0_pay7 k0_pay8 k0_pay9 k0_pay10 k0_pay11 k0_pay12 k0_pay2 k0_pay3 k0_pay4 k0_pay5 k0_pay6
  simp only [shapeCast_self]
  refine (addf_apply _ _ (ix2 p j)).trans ?_
  exact congrArg₂ (· + ·)
    ((vec_tail_apply _ dot_wide _ dot_out broadcasts_S1x128_S2000x128 broadcasts_S1x2_S2000x2 bitsLt_bf16_f32 _
        (truncf .bf16 x5 bitsLt_bf16_f32) x6 (truncf .bf16 x7 bitsLt_bf16_f32) x8 p j).trans
      (congrArg (fun y => tail y x5 (row x6) x7 (row x8) j) (funext fun k =>
        vec_lin2_apply _ dot_wide broadcasts_S1x128_S2000x128 (truncf .bf16 x0 bitsLt_bf16_f32) (truncf .bf16 x1 bitsLt_bf16_f32)
          (truncf .bf16 x2 bitsLt_bf16_f32) (truncf .bf16 x3 bitsLt_bf16_f32) x4 p k)))
    ((vec_tail_apply _ dot_wide _ dot_out broadcasts_S1x128_S2000x128 broadcasts_S1x2_S2000x2 bitsLt_bf16_f32 _
        (truncf .bf16 x5 bitsLt_bf16_f32) x6 (truncf .bf16 x7 bitsLt_bf16_f32) x8 p j).trans
      (congrArg (fun y => tail y x5 (row x6) x7 (row x8) j) (funext fun k =>
        vec_lin2_apply _ dot_wide broadcasts_S1x128_S2000x128 (truncf .bf16 x1 bitsLt_bf16_f32) (truncf .bf16 x0 bitsLt_bf16_f32)
          (truncf .bf16 x2 bitsLt_bf16_f32) (truncf .bf16 x3 bitsLt_bf16_f32) x4 p k)))

/-- The output block after the body, at (p, j): the score of the bond of row p. -/
theorem block_apply (x0 x1 : Vec Ideal S2000x128 .f32) (x2 x3 : Vec Ideal S128x128 .f32) (x4 : Vec Ideal S1x128 .f32)
    (x5 : Vec Ideal S128x128 .f32) (x6 : Vec Ideal S1x128 .f32) (x7 : Vec Ideal S128x2 .f32) (x8 : Vec Ideal S1x2 .f32)
    (p : Fin 2000) (j : Fin 2) :
    out0_9 (F := Ideal) x0 x1 x2 x3 x4 x5 x6 x7 x8 (ix2 p j)
      = score (fun k => x0 (ix2 p k)) (fun k => x1 (ix2 p k)) x2 x3 (row x4) x5 (row x6) x7 (row x8) j := by
  unfold out0_9
  rw [View.canon_unit_zero hz]
  simp only [View.ld_unit_zero (S := S2000x128) hz, View.ld_unit_zero (S := S128x128) hz, View.ld_unit_zero (S := S1x128) hz,
    View.ld_unit_zero (S := S128x2) hz, View.ld_unit_zero (S := S1x2) hz]
  exact payload_apply x0 x1 x2 x3 x4 x5 x6 x7 x8 p j

end Cert.KernelIdeal.Body

end
-- ==== Proof.LibIndexWrap.lean ====
/-
  Signed index words wrapped the NumPy way, and masks that are all ones.

  An index word `s` into an axis of extent `n` is wrapped as `if s < 0 then s + n else s` (signed compare, wrapping
  add). If `-n ≤ s < n` as a signed integer, the wrapped word lies in `[0, n)`, so a range test
  `0 ≤ s' ∧ s' ≤ n - 1` of it is the bit 1 (`wrap_inRange`, `rangeTest_wrap`). A reduce by `and` from the initial
  bit 1 over bits that are all 1 is 1 at every result index (`reduce_andi_of_all`, the converse of the library's
  `Host.reduce_andi_eq_one`), and a select under a mask that is 1 everywhere is its first branch (`select_of_ones`).
-/
import Idealize.ShloMosaic.Lib.ReduceAll
import Idealize.ShloMosaic.Lib.StableHlo.Predicate

namespace Idealize.ShloMosaic.IndexWrap

open Idealize.ShloMosaic

/-- NumPy's wrap of a signed index word into an axis of extent `n`: a negative index counts from the end. -/
def wrapWord (n s : BitVec 32) : BitVec 32 := Scalar.select (IntOp.cmpi .slt s 0#32) (IntOp.addi s n) s

/-- A signed index in `[-n, n)` wraps into `[0, n)`. -/
theorem wrap_inRange (n : Nat) (hn : n < 2 ^ 30) (s : BitVec 32) (h1 : -(n : Int) ≤ s.toInt) (h2 : s.toInt < n) :
    0 ≤ (wrapWord (BitVec.ofNat 32 n) s).toInt ∧ (wrapWord (BitVec.ofNat 32 n) s).toInt < n := by
  have hz : (0#32 : BitVec 32).toInt = 0 := by decide
  have hnI : (BitVec.ofNat 32 n).toInt = n := StableHlo.Predicate.toInt_ofNat_small n (by omega)
  unfold wrapWord Scalar.select
  by_cases hs : IntOp.cmpi .slt s 0#32 = 1
  · rw [if_pos hs]
    have hneg : s.toInt < 0 := by have := IntOp.cmpi_slt.1 hs; rwa [hz] at this
    have hsum : (IntOp.addi s (BitVec.ofNat 32 n)).toInt = s.toInt + n := by
      rw [IntOp.addi, BitVec.toInt_add, hnI]
      exact Int.bmod_eq_of_le (by omega) (by omega)
    rw [hsum]; omega
  · rw [if_neg hs]
    have hnn : ¬ s.toInt < 0 := fun h => hs (IntOp.cmpi_slt.2 (by rw [hz]; exact h))
    omega

/-- The range test `0 ≤ s' ∧ s' ≤ hi` (signed) of a wrapped index, `hi` the word of `n - 1`, is the bit 1. -/
theorem rangeTest_wrap (n : Nat) (hn0 : 0 < n) (hn : n < 2 ^ 30) (hi : BitVec 32) (hhi : hi.toInt = (n : Int) - 1)
    (s : BitVec 32) (h1 : -(n : Int) ≤ s.toInt) (h2 : s.toInt < n) :
    IntOp.andi (IntOp.cmpi .sge (wrapWord (BitVec.ofNat 32 n) s) 0#32) (IntOp.cmpi .sle (wrapWord (BitVec.ofNat 32 n) s) hi) = 1#1 := by
  have hz : (0#32 : BitVec 32).toInt = 0 := by decide
  obtain ⟨h0, hlt⟩ := wrap_inRange n hn s h1 h2
  exact IntOp.andi_eq_one.2 ⟨IntOp.cmpi_sge.2 (by rw [hz]; exact h0), IntOp.cmpi_sle.2 (by rw [hhi]; omega)⟩

/-- A left fold by `and` from 1 over bits that are all 1 is 1. -/
theorem foldl_andi_ones {ι : Type} (f : ι → BitVec 1) :
    ∀ (l : List ι) (init : BitVec 1), init = 1#1 → (∀ n ∈ l, f n = 1#1) → l.foldl (fun r n => IntOp.andi r (f n)) init = 1#1
  | [], _, h, _ => h
  | a :: l, init, h, hl => by
    rw [List.foldl_cons]
    exact foldl_andi_ones f l _ (IntOp.andi_eq_one.2 ⟨h, hl a (List.mem_cons_self ..)⟩) (fun n hn => hl n (List.mem_cons_of_mem _ hn))

/-- A reduce by `and` from the initial bit 1 over an operand that is 1 everywhere is 1 at every result index. -/
theorem reduce_andi_of_all {s t u : Shape} {axes : List (Fin s.rank)} (x : s.Idx → BitVec 1) (init : u.Idx → BitVec 1)
    (h : s.ReducesTo axes t) (hu : 0 < u.numel) (hinit : ∀ k, init k = 1#1) (hx : ∀ i, x i = 1#1) (j : t.Idx) :
    Host.reduce IntOp.andi x init h hu j = 1#1 := by
  rw [Host.reduce_eq_foldl]
  exact foldl_andi_ones x _ _ (hinit _) (fun i _ => hx i)

/-- Under a mask that is 1 everywhere a select is its first branch. -/
theorem select_of_ones {α : Type} {s : Shape} (c : IVec s 1) (a b : s.Idx → α) (hc : ∀ i, c i = 1#1) : select c a b = a :=
  funext fun i => by
    show Scalar.select (c i) (a i) (b i) = a i
    rw [hc i]; exact if_pos rfl

end Idealize.ShloMosaic.IndexWrap
-- ==== Proof.LibTRef.lean ====
/-
  Typed references of a module-local function: moving a value to the buffer's own type and back is the identity.

  An operation of an outlined function is stated over references that carry the type of the tensor they hold; its
  function is moved to the buffer's own contents type along the equation of the two types (`toBuf`) and each operand
  is moved back (`ofBuf`). Reading a line of such operations leaves a pair `ofBuf (toBuf v)` around every
  intermediate value; the pair is the identity, whatever the reference.
-/
import Idealize.ShloMosaic.Lib.StableHlo

namespace Idealize.ShloMosaic.StableHlo.TRef

variable {sig : RefSig} {Val : EltTy → Type} {T : BufTy}

/-- To the buffer's type and back. -/
theorem ofBuf_toBuf (x : TRef sig T) (v : T.Contents Val) : x.ofBuf (x.toBuf v) = v := by
  obtain ⟨r, rfl, h1, h2⟩ := x
  rfl

/-- Back and to the buffer's type. -/
theorem toBuf_ofBuf (x : TRef sig T) (v : x.ref.ty.Contents Val) : x.toBuf (x.ofBuf v) = v := by
  obtain ⟨r, rfl, h1, h2⟩ := x
  rfl

end Idealize.ShloMosaic.StableHlo.TRef
-- ==== Proof.Entry.lean ====
/-
  The arrays as the kernel's region finds them: what the host operations before it leave.

  Two calls of jnp.take with its default out-of-range rule: each index word is wrapped the NumPy way (a negative word counts
  from the back), tested for 0 <= s' <= 199999, the rows are gathered, and a row whose index fails the test is replaced by a
  fill value.  Where every index word lies in [-200000, 200000) the wrapped word passes the test, the mask is all ones, and the
  result is the plain gather of the wrapped indices (taken_eq).  Beside them: the two halves of the first weight matrix
  (unit-stride slices of its rows 0..127 and 128..255) and the three bias vectors reshaped to one-row matrices.
-/
import proofs.«412722_j52716428591258_1_alg».proof.Proof.Gen.KernelIdeal.Frame
import proofs.«412722_j52716428591258_1_alg».proof.Proof.LibIndexWrap
import proofs.«412722_j52716428591258_1_alg».proof.Proof.LibTRef
import proofs.«412722_j52716428591258_1_alg».proof.Proof.IndexRange
import proofs.«412722_j52716428591258_1_alg».proof.Proof.Bond
import Idealize.ShloMosaic.Lib.StableHlo.Run

noncomputable section

namespace Cert.KernelIdeal.Entry

open Cert.KernelIdeal Cert.KernelIdeal.Gen
open Idealize.ShloMosaic Idealize.ShloMosaic.ValueIdx Idealize.ShloMosaic.TcCoe Idealize.SL.Sem Idealize.ShloMosaic.StableHlo

variable {F : FTy → Type} [FloatOps F]

/-! ## jnp.take, as printed -/

/-- Every index word wrapped the NumPy way. -/
def wrapped (s : IVec S220000 32) : IVec S220000 32 :=
  select (cmpi .slt s (broadcastInDim S220000 ![] bcast_S_S220000 (constantI S_ 32 0#32)))
    (addi s (broadcastInDim S220000 ![] bcast_S_S220000 (constantI S_ 32 200000#32))) s

/-- The wrapped words as a column of start indices. -/
def column (s : IVec S220000 32) : IVec S220000x1 32 := broadcastInDim S220000x1 ![0] bcast_S220000_S220000x1_0 (wrapped s)

/-- The rows of the table h the wrapped indices name. -/
def rows (h : FVec F S200000x128 .f32) (s : IVec S220000 32) : FVec F S220000x128 .f32 :=
  Host.gather gather_S200000x128_S220000x1_S220000x128_1_0_n_n_0_1_1128 h (column s)

/-- The range test of each wrapped word: 0 <= s' and s' <= 199999. -/
def inside (s : IVec S220000 32) : IVec S220000x1 1 :=
  andi (cmpi .sge (column s) (broadcastInDim S220000x1 ![] bcast_S_S220000x1 (constantI S_ 32 0#32)))
    (cmpi .sle (column s) (broadcastInDim S220000x1 ![0, 1] bcast_S1x1_S220000x1_0_1
      (broadcastInDim S1x1 ![1] bcast_S1_S1x1_1 (constantI S1 32 199999#32))))

/-- The test reduced along the column's one entry: one bit per row. -/
def rowInside (s : IVec S220000 32) : IVec S220000 1 :=
  Host.reduce IntOp.andi (inside s) (constantI S_ 1 1#1) reducesTo_S220000x1_S220000_d1 h_S_

/-- jnp.take's result: the gathered rows where the index passes the test, the fill value elsewhere. -/
def taken (h : FVec F S200000x128 .f32) (s : IVec S220000 32) : FVec F S220000x128 .f32 :=
  select (broadcastInDim S220000x128 ![0] bcast_S220000_S220000x128_0 (rowInside s)) (rows h s)
    (broadcastInDim S220000x128 ![] bcast_S_S220000x128 (constant S_ .f32 0x7FC00000#32))

/-- An index word in [-200000, 200000), wrapped, passes the range test. -/
theorem inside_eq_one (s : IVec S220000 32) (hs : Cert.IndexRange.InRange s) (k : S220000x1.Idx) : inside s k = 1#1 := by
  have key : ∀ e : S220000.Idx,
      IntOp.andi (IntOp.cmpi .sge (IndexWrap.wrapWord (BitVec.ofNat 32 200000) (s e)) 0#32)
        (IntOp.cmpi .sle (IndexWrap.wrapWord (BitVec.ofNat 32 200000) (s e)) 199999#32) = 1#1 := fun e =>
    IndexWrap.rangeTest_wrap 200000 (by norm_num) (by norm_num) 199999#32 (by decide) (s e)
      (by have := (hs e).1; omega) (by have := (hs e).2; omega)
  exact key _

/-- With every index in range the fill value is never used: jnp.take is the plain gather of the wrapped indices. -/
theorem taken_eq (h : FVec F S200000x128 .f32) (s : IVec S220000 32) (hs : Cert.IndexRange.InRange s) : taken h s = rows h s := by
  unfold taken
  refine IndexWrap.select_of_ones _ _ _ (fun i => ?_)
  show rowInside s _ = 1#1
  unfold rowInside
  exact IndexWrap.reduce_andi_of_all _ _ _ _ (fun _ => rfl) (fun k => inside_eq_one s hs k) _

/-! ## The region's operand arrays -/

/-! The operations of jnp.take stand in a module-local function and move each value between the tensor's own type and its
    buffer's type; for these buffers the two types are the same and the move is the identity. -/

theorem toBuf_src (h1 h2 h3) (v : FVec F S220000x128 .f32) :
    ((TRef.of (T := ⟨S220000x128, .f32⟩) main_v0 h1 h2 h3).toBuf (Val := Elt F) v : FVec F S220000x128 .f32) = v := rfl
theorem toBuf_dst (h1 h2 h3) (v : FVec F S220000x128 .f32) :
    ((TRef.of (T := ⟨S220000x128, .f32⟩) main_v1 h1 h2 h3).toBuf (Val := Elt F) v : FVec F S220000x128 .f32) = v := rfl
theorem ofBuf_table (h1 h2 h3) (v : FVec F S200000x128 .f32) :
    ((TRef.of (T := ⟨S200000x128, .f32⟩) main_arg0 h1 h2 h3).ofBuf (Val := Elt F) v : FVec F S200000x128 .f32) = v := rfl
theorem ofBuf_srcIdx (h1 h2 h3) (v : IVec S220000 32) :
    ((TRef.of (T := ⟨S220000, .i32⟩) main_arg1 h1 h2 h3).ofBuf (Val := Elt F) v : IVec S220000 32) = v := rfl
theorem ofBuf_dstIdx (h1 h2 h3) (v : IVec S220000 32) :
    ((TRef.of (T := ⟨S220000, .i32⟩) main_arg2 h1 h2 h3).ofBuf (Val := Elt F) v : IVec S220000 32) = v := rfl

variable (m : (ℓ : Loc nD τ sig) → Buf (Elt F) ℓ)

set_option maxHeartbeats 1000000 in
/-- Operand 0: the rows taken at the source indices. -/
theorem found_src (c : Dev nD) : (V m c main_v0 : FVec F S220000x128 .f32) = taken (m ((c : Thread nD τ).loc main_arg0)) (m ((c : Thread nD τ).loc main_arg1)) := by
  dsimp only [V]
  simp only [hostOps0, hostOps0_1, hostOps0_2, List.flatten_cons, List.flatten_nil, List.append_nil, List.cons_append, List.nil_append]
  after_results_simp
  simp only [StableHlo.TRef.ofBuf_toBuf, toBuf_src, toBuf_dst, ofBuf_table, ofBuf_srcIdx, ofBuf_dstIdx]
  rfl

set_option maxHeartbeats 1000000 in
/-- Operand 1: the rows taken at the destination indices. -/
theorem found_dst (c : Dev nD) : (V m c main_v1 : FVec F S220000x128 .f32) = taken (m ((c : Thread nD τ).loc main_arg0)) (m ((c : Thread nD τ).loc main_arg2)) := by
  dsimp only [V]
  simp only [hostOps0, hostOps0_1, hostOps0_2, List.flatten_cons, List.flatten_nil, List.append_nil, List.cons_append, List.nil_append]
  after_results_simp
  simp only [StableHlo.TRef.ofBuf_toBuf, toBuf_src, toBuf_dst, ofBuf_table, ofBuf_srcIdx, ofBuf_dstIdx]
  rfl

/-- Operand 2: rows 0..127 of the first weight matrix. -/
theorem found_W1a (c : Dev nD) : (V m c main_v2 : FVec F S128x128 .f32)
    = extractStridedSlice S128x128 ![0, 0] (m ((c : Thread nD τ).loc main_arg3)) slices_S256x128_S128x128_0_0 := by
  dsimp only [V]
  simp only [hostOps0, hostOps0_1, hostOps0_2, List.flatten_cons, List.flatten_nil, List.append_nil, List.cons_append, List.nil_append]
  after_results <;> rfl

/-- Operand 3: rows 128..255 of the first weight matrix. -/
theorem found_W1b (c : Dev nD) : (V m c main_v3 : FVec F S128x128 .f32)
    = extractStridedSlice S128x128 ![128, 0] (m ((c : Thread nD τ).loc main_arg3)) slices_S256x128_S128x128_128_0 := by
  dsimp only [V]
  simp only [hostOps0, hostOps0_1, hostOps0_2, List.flatten_cons, List.flatten_nil, List.append_nil, List.cons_append, List.nil_append]
  after_results <;> rfl

/-- Operand 4: the first bias as one row. -/
theorem found_b1 (c : Dev nD) : (V m c main_v4 : FVec F S1x128 .f32) = shapeCast S1x128 (m ((c : Thread nD τ).loc main_arg4)) shapeCasts_S128_S1x128 := by
  dsimp only [V]
  simp only [hostOps0, hostOps0_1, hostOps0_2, List.flatten_cons, List.flatten_nil, List.append_nil, List.cons_append, List.nil_append]
  after_results <;> rfl

/-- Operand 6: the second bias as one row. -/
theorem found_b2 (c : Dev nD) : (V m c main_v5 : FVec F S1x128 .f32) = shapeCast S1x128 (m ((c : Thread nD τ).loc main_arg6)) shapeCasts_S128_S1x128 := by
  dsimp only [V]
  simp only [hostOps0, hostOps0_1, hostOps0_2, List.flatten_cons, List.flatten_nil, List.append_nil, List.cons_append, List.nil_append]
  after_results <;> rfl

/-- Operand 8: the third bias as one row. -/
theorem found_b3 (c : Dev nD) : (V m c main_v6 : FVec F S1x2 .f32) = shapeCast S1x2 (m ((c : Thread nD τ).loc main_arg8)) shapeCasts_S2_S1x2 := by
  dsimp only [V]
  simp only [hostOps0, hostOps0_1, hostOps0_2, List.flatten_cons, List.flatten_nil, List.append_nil, List.cons_append, List.nil_append]
  after_results <;> rfl

/-! ## The two slices are the upper and lower halves -/

theorem slice_upper (W : S256x128.Idx → EReal) :
    extractStridedSlice S128x128 ![0, 0] W slices_S256x128_S128x128_0_0 = Cert.Bond.upper (H := 128) (J := 128) W := by
  funext i
  exact extractStridedSlice_apply _ W _ i (ix2 (Fin.castAdd 128 (i 0)) (i 1)) fun a => by
    match a with
    | ⟨0, _⟩ => show (i 0).val = 0 + (i 0).val; omega
    | ⟨1, _⟩ => show (i 1).val = 0 + (i 1).val; omega

theorem slice_lower (W : S256x128.Idx → EReal) :
    extractStridedSlice S128x128 ![128, 0] W slices_S256x128_S128x128_128_0 = Cert.Bond.lower (H := 128) (J := 128) W := by
  funext i
  exact extractStridedSlice_apply _ W _ i (ix2 (Fin.natAdd 128 (i 0)) (i 1)) fun a => by
    match a with
    | ⟨0, _⟩ => show 128 + (i 0).val = 128 + (i 0).val; rfl
    | ⟨1, _⟩ => show (i 1).val = 0 + (i 1).val; omega

end Cert.KernelIdeal.Entry

end
-- ==== Proof.KernelScores.lean ====
/-
  The kernel's result array as one function of the arrays its region finds, and then of the arguments.

  The grid has 110 points; point t stages rows 2000 t .. 2000 t + 1999 of the two gathered arrays, the whole of every weight
  and bias array, and writes back rows 2000 t .. 2000 t + 1999 of the 220000 by 2 result.  The body's block at row p is the
  score of the bond of row p of the staged blocks (KernelBody), that is of row 2000 t + p of the arrays: so what point t
  writes back is block t of ONE whole-array function, the scores of all bonds.  The 110 blocks tile the result (row r lies
  in block r / 2000), so the array ends holding that function.  Under the index-range precondition the two staged arrays
  are the plain gathers of the wrapped indices (Entry), the two weight operands the upper and lower halves of the first
  matrix, the bias operands the bias vectors.
-/
import proofs.«412722_j52716428591258_1_alg».proof.Proof.Gen.KernelIdeal.Value
import proofs.«412722_j52716428591258_1_alg».proof.Proof.KernelBody
import proofs.«412722_j52716428591258_1_alg».proof.Proof.Entry

set_option maxRecDepth 16384

noncomputable section

namespace Cert.KernelIdeal.Scores

open Cert.KernelIdeal Cert.KernelIdeal.Gen
open Idealize.ShloMosaic Idealize.ShloMosaic.ValueIdx Idealize.ShloMosaic.TcCoe Idealize.SL.Sem
open Idealize.ShloMosaic.Pipeline (Dat)
open Cert.Bond
open Cert.Mlp (row vec row_shapeCast)

variable (m : (ℓ : Loc nD τ sig) → Buf (Elt Ideal) ℓ) (ρ : Dev nD → PrngReg)

/-- The scores of all 220000 bonds, over the arrays as the region finds them. -/
def found (c : Dev nD) : S220000x2.Idx → EReal :=
  scores (N := 220000) (H := 128) (J := 128) (L := 128) (M := 2)
    (V m c main_v0 : FVec Ideal S220000x128 .f32) (V m c main_v1 : FVec Ideal S220000x128 .f32)
    (V m c main_v2 : FVec Ideal S128x128 .f32) (V m c main_v3 : FVec Ideal S128x128 .f32)
    (row (V m c main_v4 : FVec Ideal S1x128 .f32)) (V m c main_arg5 : FVec Ideal S128x128 .f32)
    (row (V m c main_v5 : FVec Ideal S1x128 .f32)) (V m c main_arg7 : FVec Ideal S128x2 .f32)
    (row (V m c main_v6 : FVec Ideal S1x2 .f32))

/-- The printed index maps, decided over the 110 points: the two row-blocked inputs move with the output, every other
    input stays at block (0, 0), and the output's block index is the point's number. -/
theorem idx_facts : ∀ t : Fin cfg0.N,
    win0_0.index t (0 : Fin 2) = win0_9.index t (0 : Fin 2) ∧ win0_0.index t (1 : Fin 2) = 0
    ∧ win0_1.index t (0 : Fin 2) = win0_9.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

/-! ## The input blocks, read where the output's block says -/

/-- Row p of window 0's block at point t is row 2000 * t + p of its array. -/
theorem blk_row0 (c : Dev nD) (t : Fin cfg0.N) (p : Fin 2000) (k : Fin 128) (r : Fin 220000)
    (hr : r.val = win0_9.index t (0 : Fin 2) * 2000 + p.val) :
    iblk m c 0 t (ix2 p k) = V m c main_v0 (ix2 r k) := by
  have e := idx_facts t
  show V m c main_v0 (((cfg0.win 0).blk t).view.emb (ix2 p k)) = V m c main_v0 (ix2 r k)
  refine congrArg _ (funext fun a => Fin.ext ?_)
  match a with
  | ⟨0, _⟩ => show win0_0.index t (0 : Fin 2) * 2000 + 1 * p.val = r.val; omega
  | ⟨1, _⟩ => show win0_0.index t (1 : Fin 2) * 128 + 1 * k.val = k.val; omega

/-- Row p of window 1's block at point t is row 2000 * t + p of its array. -/
theorem blk_row1 (c : Dev nD) (t : Fin cfg0.N) (p : Fin 2000) (k : Fin 128) (r : Fin 220000)
    (hr : r.val = win0_9.index t (0 : Fin 2) * 2000 + p.val) :
    iblk m c 1 t (ix2 p k) = V m c main_v1 (ix2 r k) := by
  have e := idx_facts t
  show V m c main_v1 (((cfg0.win 1).blk t).view.emb (ix2 p k)) = V m c main_v1 (ix2 r k)
  refine congrArg _ (funext fun a => Fin.ext ?_)
  match a with
  | ⟨0, _⟩ => show win0_1.index t (0 : Fin 2) * 2000 + 1 * p.val = r.val; omega
  | ⟨1, _⟩ => show win0_1.index t (1 : Fin 2) * 128 + 1 * k.val = k.val; omega

/-- Window 2 stages its whole array at every point. -/
theorem blk_whole2 (c : Dev nD) (t : Fin cfg0.N) : (iblk m c 2 t : S128x128.Idx → EReal) = V m c main_v2 := by
  have e := idx_facts t
  funext y
  show V m c main_v2 (((cfg0.win 2).blk t).view.emb y) = V m c main_v2 y
  refine congrArg _ (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- Window 3 stages its whole array at every point. -/
theorem blk_whole3 (c : Dev nD) (t : Fin cfg0.N) : (iblk m c 3 t : S128x128.Idx → EReal) = V m c main_v3 := by
  have e := idx_facts t
  funext y
  show V m c main_v3 (((cfg0.win 3).blk t).view.emb y) = V m c main_v3 y
  refine congrArg _ (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- Window 4 stages its whole array at every point. -/
theorem blk_whole4 (c : Dev nD) (t : Fin cfg0.N) : (iblk m c 4 t : S1x128.Idx → EReal) = V m c main_v4 := by
  have e := idx_facts t
  funext y
  show V m c main_v4 (((cfg0.win 4).blk t).view.emb y) = V m c main_v4 y
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 128 + 1 * (y 1).val = (y 1).val; omega

/-- Window 5 stages its whole array at every point. -/
theorem blk_whole5 (c : Dev nD) (t : Fin cfg0.N) : (iblk m c 5 t : S128x128.Idx → EReal) = V m c main_arg5 := by
  have e := idx_facts t
  funext y
  show V m c main_arg5 (((cfg0.win 5).blk t).view.emb y) = V m c main_arg5 y
  refine congrArg _ (funext fun a => Fin.ext ?_)
  match a with
  | ⟨0, _⟩ => show win0_5.index t (0 : Fin 2) * 128 + 1 * (y 0).val = (y 0).val; omega
  | ⟨1, _⟩ => show win0_5.index t (1 : Fin 2) * 128 + 1 * (y 1).val = (y 1).val; omega

/-- Window 6 stages its whole array at every point. -/
theorem blk_whole6 (c : Dev nD) (t : Fin cfg0.N) : (iblk m c 6 t : S1x128.Idx → EReal) = V m c main_v5 := by
  have e := idx_facts t
  funext y
  show V m c main_v5 (((cfg0.win 6).blk t).view.emb y) = V m c main_v5 y
  refine congrArg _ (funext fun a => Fin.ext ?_)
  match a with
  | ⟨0, _⟩ => show win0_6.index t (0 : Fin 2) * 1 + 1 * (y 0).val = (y 0).val; omega
  | ⟨1, _⟩ => show win0_6.index t (1 : Fin 2) * 128 + 1 * (y 1).val = (y 1).val; omega

/-- Window 7 stages its whole array at every point. -/
theorem blk_whole7 (c : Dev nD) (t : Fin cfg0.N) : (iblk m c 7 t : S128x2.Idx → EReal) = V m c main_arg7 := by
  have e := idx_facts t
  funext y
  show V m c main_arg7 (((cfg0.win 7).blk t).view.emb y) = V m c main_arg7 y
  refine congrArg _ (funext fun a => Fin.ext ?_)
  match a with
  | ⟨0, _⟩ => show win0_7.index t (0 : Fin 2) * 128 + 1 * (y 0).val = (y 0).val; omega
  | ⟨1, _⟩ => show win0_7.index t (1 : Fin 2) * 2 + 1 * (y 1).val = (y 1).val; omega

/-- Window 8 stages its whole array at every point. -/
theorem blk_whole8 (c : Dev nD) (t : Fin cfg0.N) : (iblk m c 8 t : S1x2.Idx → EReal) = V m c main_v6 := by
  have e := idx_facts t
  funext y
  show V m c main_v6 (((cfg0.win 8).blk t).view.emb y) = V m c main_v6 y
  refine congrArg _ (funext fun a => Fin.ext ?_)
  match a with
  | ⟨0, _⟩ => show win0_8.index t (0 : Fin 2) * 1 + 1 * (y 0).val = (y 0).val; omega
  | ⟨1, _⟩ => show win0_8.index t (1 : Fin 2) * 2 + 1 * (y 1).val = (y 1).val; omega

/-- A score depends only on its operands. -/
theorem score_congr {H J L M : ℕ} {a a' b b' : Fin H → EReal} {Wa Wa' Wb Wb' : (⟨2, ![H, J]⟩ : Shape).Idx → EReal}
    {b1 b1' : Fin J → EReal} {W2 W2' : (⟨2, ![J, L]⟩ : Shape).Idx → EReal} {b2 b2' : Fin L → EReal}
    {W3 W3' : (⟨2, ![L, M]⟩ : Shape).Idx → EReal} {b3 b3' : Fin M → EReal} {j j' : Fin M}
    (ha : a = a') (hb : b = b') (hWa : Wa = Wa') (hWb : Wb = Wb') (hb1 : b1 = b1') (hW2 : W2 = W2') (hb2 : b2 = b2')
    (hW3 : W3 = W3') (hb3 : b3 = b3') (hj : j = j') :
    score a b Wa Wb b1 W2 b2 W3 b3 j = score a' b' Wa' Wb' b1' W2' b2' W3' b3' j' := by
  subst ha hb hWa hWb hb1 hW2 hb2 hW3 hb3 hj; rfl

/-! ## What a point writes back is a block of the one function -/

theorem flushed_eq (c : Dev nD) (t : Fin cfg0.N) :
    (dats m 0 c).flushed 9 t = ((cfg0.win 9).blk t).view.read (Elt Ideal) (found m c) := by
  rw [Cert.KernelIdeal.Value.flushed9]
  have e := idx_facts t
  funext y
  obtain ⟨p, j, rfl⟩ : ∃ (p : Fin 2000) (j : Fin 2), y = ix2 p j := ⟨y 0, y 1, eq_ix2 y⟩
  show out0_9 (iblk m c 0 t) (iblk m c 1 t) (iblk m c 2 t) (iblk m c 3 t) (iblk m c 4 t) (iblk m c 5 t) (iblk m c 6 t)
      (iblk m c 7 t) (iblk m c 8 t) (ix2 p j) = found m c (((cfg0.win 9).blk t).view.emb (ix2 p j))
  refine (Body.block_apply (iblk m c 0 t) (iblk m c 1 t) (iblk m c 2 t) (iblk m c 3 t) (iblk m c 4 t) (iblk m c 5 t)
    (iblk m c 6 t) (iblk m c 7 t) (iblk m c 8 t) p j).trans ?_
  have hr : ((((cfg0.win 9).blk t).view.emb (ix2 p j)) 0).val = win0_9.index t (0 : Fin 2) * 2000 + p.val := by
    show win0_9.index t (0 : Fin 2) * 2000 + 1 * p.val = _; omega
  have hj : j = (((cfg0.win 9).blk t).view.emb (ix2 p j)) 1 := Fin.ext (by
    show j.val = win0_9.index t (1 : Fin 2) * 2 + 1 * j.val; omega)
  exact score_congr (funext fun k => blk_row0 m c t p k _ hr) (funext fun k => blk_row1 m c t p k _ hr)
    (blk_whole2 m c t) (blk_whole3 m c t) (congrArg row (blk_whole4 m c t)) (blk_whole5 m c t)
    (congrArg row (blk_whole6 m c t)) (blk_whole7 m c t) (congrArg row (blk_whole8 m c t)) hj

/-! ## The blocks tile the result -/

theorem mem_blk (t : Fin cfg0.N) (i : S220000x2.Idx) :
    i ∈ ((cfg0.win 9).blk t).view.set ↔ ∀ a : Fin 2, win0_9.index t a * S2000x2.size a ≤ (i a).val
      ∧ (i a).val < win0_9.index t a * S2000x2.size a + S2000x2.size a := by
  show i ∈ ((View.whole main_v7).slice (win0_9.rect t)).set ↔ _
  rw [View.set_slice_whole, Rect.mem_set_unit]
  exact Iff.rfl

/-- Row r of the result lies in the block of point r / 2000. -/
theorem cover (i : S220000x2.Idx) :
    ∃ t : Fin cfg0.N, (cfg0.win 9).flush t = true ∧ i ∈ ((cfg0.win 9).blk t).view.set := by
  have hi0 : (i 0).val < 220000 := (i 0).isLt
  have hi1 : (i 1).val < 2 := (i 1).isLt
  have hN : cfg0.N = 110 := N_0
  have ht : (i 0).val / 2000 < cfg0.N := by omega
  have e := idx_facts ⟨(i 0).val / 2000, ht⟩
  refine ⟨⟨(i 0).val / 2000, ht⟩, flush0_9 _, ?_⟩
  rw [mem_blk]
  intro a
  match a with
  | ⟨0, _⟩ =>
    show win0_9.index ⟨(i 0).val / 2000, ht⟩ (0 : Fin 2) * 2000 ≤ (i 0).val
      ∧ (i 0).val < win0_9.index ⟨(i 0).val / 2000, ht⟩ (0 : Fin 2) * 2000 + 2000
    have : (⟨(i 0).val / 2000, ht⟩ : Fin cfg0.N).val = (i 0).val / 2000 := rfl
    omega
  | ⟨1, _⟩ =>
    show win0_9.index ⟨(i 0).val / 2000, ht⟩ (1 : Fin 2) * 2 ≤ (i 1).val
      ∧ (i 1).val < win0_9.index ⟨(i 0).val / 2000, ht⟩ (1 : Fin 2) * 2 + 2
    omega

/-- So the result array ends holding the scores over the arrays the region found. -/
theorem final (c : Dev nD) : (dats m 0 c).arrAt 9 cfg0.N = found m c :=
  (dats m 0 c).arrAt_eq_of_cover 9 (found m c) (fun t _ => flushed_eq m c t) cover

/-! ## Over the arguments -/

/-- The scores of all bonds as a function of the argument arrays. -/
def result (h : FVec Ideal S200000x128 .f32) (s d : IVec S220000 32) (W1 : FVec Ideal S256x128 .f32) (b1 : FVec Ideal S128 .f32)
    (W2 : FVec Ideal S128x128 .f32) (b2 : FVec Ideal S128 .f32) (W3 : FVec Ideal S128x2 .f32) (b3 : FVec Ideal S2 .f32) :
    S220000x2.Idx → EReal :=
  scores (N := 220000) (H := 128) (J := 128) (L := 128) (M := 2) (Entry.rows h s) (Entry.rows h d)
    (upper (H := 128) (J := 128) W1) (lower (H := 128) (J := 128) W1) (vec b1) W2 (vec b2) W3 (vec b3)

theorem found_eq (c : Dev nD) (hs : Cert.IndexRange.InRange (m ((c : Thread nD τ).loc main_arg1)))
    (hd : Cert.IndexRange.InRange (m ((c : Thread nD τ).loc main_arg2))) :
    found m c = result (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) := by
  unfold found result
  rw [Entry.found_src m c, Entry.found_dst m c, Entry.found_W1a m c, Entry.found_W1b m c, Entry.found_b1 m c,
    Entry.found_b2 m c, Entry.found_b3 m c, V_main_arg5 m c, V_main_arg7 m c, Entry.taken_eq _ _ hs, Entry.taken_eq _ _ hd,
    Entry.slice_upper, Entry.slice_lower, row_shapeCast, row_shapeCast, row_shapeCast]

/-- THE KERNEL'S RUN, read: under the index-range precondition the result array ends holding the scores of all bonds over
    the argument arrays, the arguments unchanged. -/
theorem run (hs : ∀ c : Dev nD, Cert.IndexRange.InRange (m ((c : Thread nD τ).loc main_arg1)))
    (hd : ∀ c : Dev nD, Cert.IndexRange.InRange (m ((c : Thread nD τ).loc main_arg2))) :
    θ_run defs (onTc (τ := τ) (main (F := Ideal))) ⟨m, fun _ => 0, ρ⟩ fun r => ∀ c : Dev nD,
      r.2.mem ((c : Thread nD τ).loc main_v7) = result (m ((c : Thread nD τ).loc main_arg0))
        (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6))
        (m ((c : Thread nD τ).loc main_arg7)) (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans ((final m c).trans (found_eq m c (hs c) (hd c))), (h c).2⟩)
    (Cert.KernelIdeal.Value.run_blocks m ρ)

end Cert.KernelIdeal.Scores

end
-- ==== Proof.RefScores.lean ====
/-
  What the reference computes, entry by entry.

  The reference gathers the rows of the table named by the two index vectors (a negative index counting from the back),
  lays the two gathered arrays side by side both ways round, [src, dst] and [dst, src], applies the three-stage perceptron to
  each 256-column array and adds the two results.  At (p, j) this is the score of the bond whose end rows are row p of
  the two gathered arrays: the 256-wide first stage splits at column 128 into the two halves of the weight matrix.
-/
import proofs.«412722_j52716428591258_1_alg».proof.Proof.Gen.ReferenceIdeal.Run
import proofs.«412722_j52716428591258_1_alg».proof.Proof.Bond

noncomputable section

namespace Cert.ReferenceIdeal.Scores

open Cert.ReferenceIdeal Cert.ReferenceIdeal.Gen Cert.ReferenceIdeal.Value
open Idealize.ShloMosaic Idealize.ShloMosaic.ValueIdx Idealize.ShloMosaic.TcCoe Idealize.SL.Sem
open Cert.Bond
open Cert.Mlp (vec)

variable {F : FTy → Type} [FloatOps F]

/-- The rows of the table h named by the index vector s: every word wrapped the NumPy way, then gathered. -/
def rows (h : FVec F S200000x128 .f32) (s : IVec S220000 32) : FVec F S220000x128 .f32 :=
  Host.gather gather_S200000x128_S220000x1_S220000x128_1_0_n_n_0_1_1128 h
    (broadcastInDim S220000x1 ![0] bcast_S220000_S220000x1_0
      (select (cmpi .slt s (broadcastInDim S220000 ![] bcast_S_S220000 (constantI S_ 32 0#32)))
        (addi s (broadcastInDim S220000 ![] bcast_S_S220000 (constantI S_ 32 200000#32))) s))

/-- Two gathered arrays side by side. -/
def beside (a b : FVec F S220000x128 .f32) : FVec F S220000x256 .f32 :=
  concatenate S220000x256 1 [⟨S220000x128, a⟩, ⟨S220000x128, b⟩] concatenates_S220000x128_S220000x128_S220000x256_d1

/-- The three-stage perceptron as the host spells it, on a 256-column input. -/
def hostMlp (x : FVec F S220000x256 .f32) (W1 : FVec F S256x128 .f32) (b1 : FVec F S128 .f32) (W2 : FVec F S128x128 .f32)
    (b2 : FVec F S128 .f32) (W3 : FVec F S128x2 .f32) (b3 : FVec F S2 .f32) : FVec F S220000x2 .f32 :=
  addf (Host.dotGeneral dot_S220000x128_S128x2_S220000x2_1_0_0_1_n_n none
      (maximumf (addf (Host.dotGeneral dot_S220000x128_S128x128_S220000x128_1_0_0_1_n_n none
          (maximumf (addf (Host.dotGeneral dot_S220000x256_S256x128_S220000x128_1_0_0_1_n_n none x W1)
              (broadcastInDim S220000x128 ![0, 1] bcast_S1x128_S220000x128_0_1 (broadcastInDim S1x128 ![1] bcast_S128_S1x128_1 b1)))
            (broadcastInDim S220000x128 ![] bcast_S_S220000x128 (constant S_ .f32 0x00000000#32))) W2)
          (broadcastInDim S220000x128 ![0, 1] bcast_S1x128_S220000x128_0_1 (broadcastInDim S1x128 ![1] bcast_S128_S1x128_1 b2)))
        (broadcastInDim S220000x128 ![] bcast_S_S220000x128 (constant S_ .f32 0x00000000#32))) W3)
    (broadcastInDim S220000x2 ![0, 1] bcast_S1x2_S220000x2_0_1 (broadcastInDim S1x2 ![1] bcast_S2_S1x2_1 b3))

/-- The reference's result as a function of its arguments. -/
def refScores (h : FVec F S200000x128 .f32) (s d : IVec S220000 32) (W1 : FVec F S256x128 .f32) (b1 : FVec F S128 .f32)
    (W2 : FVec F S128x128 .f32) (b2 : FVec F S128 .f32) (W3 : FVec F S128x2 .f32) (b3 : FVec F S2 .f32) : FVec F S220000x2 .f32 :=
  addf (hostMlp (beside (rows h s) (rows h d)) W1 b1 W2 b2 W3 b3) (hostMlp (beside (rows h d) (rows h s)) W1 b1 W2 b2 W3 b3)

/-- The run's result term is that function of the launch contents of the arguments. -/
theorem res_eq (m : (ℓ : Loc nD τ sig) → Buf (Elt F) ℓ) (c : Dev nD) :
    res_out0 m c = refScores (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) := by
  show res_main_v44 m c = _
  unfold res_main_v44; rfl

theorem dot_in : dot_S220000x256_S256x128_S220000x128_1_0_0_1_n_n = DotDims.plain 220000 256 128 := rfl
theorem dot_mid : dot_S220000x128_S128x128_S220000x128_1_0_0_1_n_n = DotDims.plain 220000 128 128 := rfl
theorem dot_out : dot_S220000x128_S128x2_S220000x2_1_0_0_1_n_n = DotDims.plain 220000 128 2 := rfl

/-- The perceptron of two arrays side by side, at (p, j): the first stage in two halves, then the other two stages. -/
theorem hostMlp_beside_apply (a b : FVec Ideal S220000x128 .f32) (W1 : FVec Ideal S256x128 .f32) (b1 : FVec Ideal S128 .f32)
    (W2 : FVec Ideal S128x128 .f32) (b2 : FVec Ideal S128 .f32) (W3 : FVec Ideal S128x2 .f32) (b3 : FVec Ideal S2 .f32)
    (p : Fin 220000) (j : Fin 2) :
    hostMlp (beside a b) W1 b1 W2 b2 W3 b3 (ix2 p j)
      = tail (lin2 (fun k => a (ix2 p k)) (fun k => b (ix2 p k)) (upper (H := 128) W1) (lower (H := 128) W1) (vec b1))
          W2 (vec b2) W3 (vec b3) j :=
  (host_mlp_apply _ dot_in _ dot_mid _ dot_out bcast_S_S220000x128 bcast_S_S220000x128 bcast_S128_S1x128_1
      bcast_S1x128_S220000x128_0_1 bcast_S128_S1x128_1 bcast_S1x128_S220000x128_0_1 bcast_S2_S1x2_1 bcast_S1x2_S220000x2_0_1
      (beside a b) W1 b1 W2 b2 W3 b3 p j).trans
    (congrArg (fun y => tail y W2 (vec b2) W3 (vec b3) j) (funext fun q =>
      lin_beside (H := 128) concatenates_S220000x128_S220000x128_S220000x256_d1 a b W1 (vec b1) p q))

/-- THE REFERENCE'S RESULT at (p, j): the score of the bond whose end rows are row p of the two gathered arrays. -/
theorem refScores_apply (h : FVec Ideal S200000x128 .f32) (s d : IVec S220000 32) (W1 : FVec Ideal S256x128 .f32)
    (b1 : FVec Ideal S128 .f32) (W2 : FVec Ideal S128x128 .f32) (b2 : FVec Ideal S128 .f32) (W3 : FVec Ideal S128x2 .f32)
    (b3 : FVec Ideal S2 .f32) (p : Fin 220000) (j : Fin 2) :
    refScores h s d W1 b1 W2 b2 W3 b3 (ix2 p j)
      = score (fun k => rows h s (ix2 p k)) (fun k => rows h d (ix2 p k)) (upper (H := 128) W1) (lower (H := 128) W1) (vec b1)
          W2 (vec b2) W3 (vec b3) j :=
  (addf_apply _ _ (ix2 p j)).trans (congrArg₂ (· + ·)
    (hostMlp_beside_apply (rows h s) (rows h d) W1 b1 W2 b2 W3 b3 p j)
    (hostMlp_beside_apply (rows h d) (rows h s) W1 b1 W2 b2 W3 b3 p j))

end Cert.ReferenceIdeal.Scores

end
-- ==== Proof.lean ====
/-
  The bond-scoring kernel against its reference, over the extended reals.

  Both programs gather, for each of 220000 bonds, the feature rows of its two end atoms from a 200000-row table (a negative
  index counting from the back), and both add the three-stage perceptron of the row [src, dst] to that of the row [dst, src].
  The kernel gathers with jnp.take, which replaces a row whose index is out of range by a fill value, where the reference's
  indexing clamps; the precondition therefore says that every index word lies in [-200000, 200000), the range in which the
  reference's own indexing is in bounds, and there the two gathers are the same array (Entry.taken_eq).  The kernel computes
  the 256-wide first stage as two 128-wide products against the two halves of the weight matrix, the reference as one
  product of the two rows side by side: a finite sum over 128 + 128 indices splits at 128 (Bond.lin_beside), which uses
  only commutativity and associativity of addition on the extended reals, so the finiteness of the float inputs is not used.
  The kernel's changes to the narrow float format are the identity on the extended reals.

  KernelScores reads the kernel's run (110 blocks of 2000 bonds tile the result); RefScores reads the reference's run;
  both end at the same function of the arguments, Bond.scores over the gathered rows.
-/
import proofs.«412722_j52716428591258_1_alg».proof.Defs
import proofs.«412722_j52716428591258_1_alg».proof.Proof.Gen.Kernel
import proofs.«412722_j52716428591258_1_alg».proof.Proof.Gen.Kernel.Frame
import proofs.«412722_j52716428591258_1_alg».proof.Proof.Gen.KernelIdeal
import proofs.«412722_j52716428591258_1_alg».proof.Proof.Gen.KernelIdeal.Frame
import proofs.«412722_j52716428591258_1_alg».proof.Proof.Gen.KernelIdeal.Value
import proofs.«412722_j52716428591258_1_alg».proof.Proof.Gen.ReferenceIdeal
import proofs.«412722_j52716428591258_1_alg».proof.Proof.Gen.ReferenceIdeal.Run
import proofs.«412722_j52716428591258_1_alg».proof.Proof.Gen.Pre_finite_inputs
import proofs.«412722_j52716428591258_1_alg».proof.Proof.IndexRange
import proofs.«412722_j52716428591258_1_alg».proof.Proof.KernelScores
import proofs.«412722_j52716428591258_1_alg».proof.Proof.RefScores
import Idealize.ShloMosaic.Adequacy
import Idealize.ShloMosaic.Init

noncomputable section

namespace Cert.Proof

open Idealize.ShloMosaic Idealize.ShloMosaic.ValueIdx Idealize.SL.Sem

/-- The word-level kernel runs and leaves its arguments as they were. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both runs end with the scores of all bonds over the gathered rows. -/
theorem algebraic : Cert.algebraic_KernelIdeal_ReferenceIdeal := by
  intro m ρ m' ρ' hpre hagree
  have hr : ∀ c : Dev Cert.KernelIdeal.nD, Cert.IndexRange.InRange (m ((c.tc : Thread Cert.KernelIdeal.nD Cert.KernelIdeal.τ).loc Cert.KernelIdeal.main_arg1)) ∧ Cert.IndexRange.InRange (m ((c.tc : Thread Cert.KernelIdeal.nD Cert.KernelIdeal.τ).loc Cert.KernelIdeal.main_arg2)) :=
    fun c => Cert.IndexRange.of_pre _ _ _ _ _ _ _ _ _ (hpre c)
  refine ⟨fun c => Cert.KernelIdeal.Scores.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    Cert.KernelIdeal.Scores.run m ρ (fun c => (hr c).1) (fun c => (hr c).2), ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Scores.res_eq m' c).trans ?_
  rw [(hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2]
  funext i
  obtain ⟨p, j, rfl⟩ : ∃ (p : Fin 220000) (j : Fin 2), i = ix2 p j := ⟨i 0, i 1, eq_ix2 i⟩
  exact Cert.ReferenceIdeal.Scores.refScores_apply _ _ _ _ _ _ _ _ _ p j

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
